-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2x2048x2048 : Shape := ⟨4, ![16, 2, 2048, 2048]⟩
abbrev S64x64 : Shape := ⟨2, ![64, 64]⟩
abbrev S64 : Shape := ⟨1, ![64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2x2048x2048 : S_.BroadcastsInDim S16x2x2048x2048 (![] : Fin 0 → Fin S16x2x2048x2048.rank)
  reducesTo_S16x2x2048x2048_S_d0_1_2_3 : S16x2x2048x2048.ReducesTo [0, 1, 2, 3] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16x2048x64 .f32) (main_arg1 : FVec F S16x2x2048x2048 .f32) (main_arg2 : FVec F S64x64 .f32) (main_arg3 : FVec F S64 .f32) (main_arg4 : FVec F S64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2x2048x2048 .f32 := Host.absf main_arg1
  let main_cst_0 : FVec F S_ .f32 := constant S_ .f32 0x7F800000#32
  let main_v5 : FVec F S16x2x2048x2048 .f32 := broadcastInDim S16x2x2048x2048 ![] bcast_S_S16x2x2048x2048 main_cst_0
  let main_v6 : IVec S16x2x2048x2048 1 := cmpf .olt main_v4 main_v5
  let main_c_1 : IVec S_ 1 := constantI S_ 1 1#1
  let main_v7 : IVec S_ 1 := (fun x v => Host.reduce IntOp.andi x v reducesTo_S16x2x2048x2048_S_d0_1_2_3 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S16x2048x64 : Shape := ⟨3, ![16, 2048, 64]⟩
abbrev S16x2x2048x2048 : Shape := ⟨4, ![16, 2, 2048, 2048]⟩
abbrev S64x64 : Shape := ⟨2, ![64, 64]⟩
abbrev S64 : Shape := ⟨1, ![64]⟩
abbrev S16x1x64 : Shape := ⟨3, ![16, 1, 64]⟩
abbrev S1x2x1024x2048 : Shape := ⟨4, ![1, 2, 1024, 2048]⟩
abbrev S1x2048x64 : Shape := ⟨3, ![1, 2048, 64]⟩
abbrev S1x1024x64 : Shape := ⟨3, ![1, 1024, 64]⟩
abbrev S1x1x64 : Shape := ⟨3, ![1, 1, 64]⟩
abbrev S1x1x1024x2048 : Shape := ⟨4, ![1, 1, 1024, 2048]⟩
abbrev S1024x2048 : Shape := ⟨2, ![1024, 2048]⟩
abbrev S2048x64 : Shape := ⟨2, ![2048, 64]⟩
abbrev S1024x64 : Shape := ⟨2, ![1024, 64]⟩
abbrev S1x64 : Shape := ⟨2, ![1, 64]⟩
abbrev S_ : Shape := ⟨0, ![]⟩

abbrev nBuf : Space → Nat
  | .hbm => 43
  | .vmem => 11
  | .smem => 0
  | _ => 0

abbrev bufTy : (tb : Table) → Fin (tcTables nBuf tb) → BufTy
  | .hbm, ⟨0, _⟩ => ⟨S16x2048x64, .f32⟩
  | .hbm, ⟨1, _⟩ => ⟨S16x2x2048x2048, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S16x2048x64, .f32⟩
  | .hbm, ⟨7, _⟩ => ⟨S16x1x64, .f32⟩
  | .hbm, ⟨8, _⟩ => ⟨S16x1x64, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1x1x64, .f32⟩
  | .hbm, ⟨25, _⟩ => ⟨S16x2048x64, .f32⟩
  | .hbm, ⟨26, _⟩ => ⟨S16x2048x64, .f32⟩
  | .hbm, ⟨27, _⟩ => ⟨S1x1x64, .f32⟩
  | .hbm, ⟨28, _⟩ => ⟨S16x2048x64, .f32⟩
  | .hbm, ⟨29, _⟩ => ⟨S16x2048x64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S1x1x64, .f32⟩
  | .hbm, ⟨35, _⟩ => ⟨S16x2048x64, .f32⟩
  | .hbm, ⟨36, _⟩ => ⟨S16x2048x64, .f32⟩
  | .hbm, ⟨37, _⟩ => ⟨S1x1x64, .f32⟩
  | .hbm, ⟨38, _⟩ => ⟨S16x2048x64, .f32⟩
  | .hbm, ⟨39, _⟩ => ⟨S16x2048x64, .f32⟩
  | .hbm, ⟨40, _⟩ => ⟨S_, .f32⟩
  | .hbm, ⟨41, _⟩ => ⟨S16x2048x64, .f32⟩
  | .hbm, ⟨42, _⟩ => ⟨S16x2048x64, .f32⟩
  | .local _ .vmem, ⟨0, _⟩ => ⟨S1x2x1024x2048, .f32⟩
  | .local _ .vmem, ⟨1, _⟩ => ⟨S1x2x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S64x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1024_i32 : BitVec 32 := 1024#32
  let v10 : BitVec 32 := Scalar.muli arg1 c1024_i32
  v10
def k0_off1 (i : grid0.Coords) : Fin 3 → Nat :=
  let c0_10 : Index := 0#32
  let arg1 : BitVec 32 := BitVec.ofNat 32 (i 1).val
  let c1024_i32 : BitVec 32 := 1024#32
  let v10 : BitVec 32 := Scalar.muli arg1 c1024_i32
  let v11 : BitVec 32 := v10
  let v12 : Index := Scalar.indexCast v11
  let c0_11 : Index := 0#32
  ![0, v12.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S64x64_S64x64_1_0 : S64x64.Transposes [1, 0] S64x64
  inb_S1x2x1024x2048_S1x1x1024x2048_0_0_0_0 : ∀ a, (![0, 0, 0, 0] : Fin 4 → Nat) a + S1x1x1024x2048.size a ≤ S1x2x1024x2048.size a
  h_S1x1x1024x2048 : 0 < S1x1x1024x2048.numel
  shapeCasts_S1x1x1024x2048_S1024x2048 : S1x1x1024x2048.ShapeCasts S1024x2048
  inb_S1x2x1024x2048_S1x1x1024x2048_0_1_0_0 : ∀ a, (![0, 1, 0, 0] : Fin 4 → Nat) a + S1x1x1024x2048.size a ≤ S1x2x1024x2048.size a
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S1x1024x64 : 0 < S1x1024x64.numel
  shapeCasts_S1x1024x64_S1024x64 : S1x1024x64.ShapeCasts S1024x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1024x64_S1x1024x64_0_0_0 : ∀ a, (![0, 0, 0] : Fin 3 → Nat) a + S1x1024x64.size a ≤ S1x1024x64.size a
  shapeCasts_S1024x64_S1x1024x64 : S1024x64.ShapeCasts S1x1024x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  reduces_S1024x64_S64 : S1024x64.Reduces [0] S64
  shapeCasts_S64_S1x64 : S64.ShapeCasts S1x64
  reducesTo_S16x1x64_S64_d0_1 : S16x1x64.ReducesTo [0, 1] S64
  h_S_ : 0 < S_.numel
  bcast_S_S64 : S_.BroadcastsInDim S64 (![] : Fin 0 → Fin S64.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  bcast_S_S16x2048x64 : S_.BroadcastsInDim S16x2048x64 (![] : Fin 0 → Fin S16x2048x64.rank)
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x2048.size a ≤ S16x2x2048x2048.size a
  hwx0_0 : ∀ i : grid0.Coords, EltTy.bits .f32 = 32 ∨ (Rect.block (s := S16x2x2048x2048) S1x2x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16x1x64.size a
  hwx0_4 : ∀ i : grid0.Coords, EltTy.bits .f32 = 32 ∨ (Rect.block (s := S16x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S16x1x64.size a
  hwx0_5 : ∀ i : grid0.Coords, EltTy.bits .f32 = 32 ∨ (Rect.block (s := S16x1x64) S1x1x64.size (cc0_transform_5 i) (hinb0_5 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg1) S1x2x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2x2048x2048 : Shape := ⟨4, ![16, 2, 2048, 2048]⟩
abbrev S64x64 : Shape := ⟨2, ![64, 64]⟩
abbrev S64 : Shape := ⟨1, ![64]⟩
abbrev S16x1x2048x2048 : Shape := ⟨4, ![16, 1, 2048, 2048]⟩
abbrev S16x2048x2048 : Shape := ⟨3, ![16, 2048, 2048]⟩
abbrev S_ : Shape := ⟨0, ![]⟩
abbrev S1x1x64 : Shape := ⟨3, ![1, 1, 64]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2x2048x2048, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S16x1x2048x2048, .f32⟩
  | .hbm, ⟨6, _⟩ => ⟨S16x2048x2048, .f32⟩
  | .hbm, ⟨7, _⟩ => ⟨S16x1x2048x2048, .f32⟩
  | .hbm, ⟨8, _⟩ => ⟨S16x2048x2048, .f32⟩
  | .hbm, ⟨9, _⟩ => ⟨S16x2048x2048, .f32⟩
  | .hbm, ⟨10, _⟩ => ⟨S16x2048x64, .f32⟩
  | .hbm, ⟨11, _⟩ => ⟨S_, .f32⟩
  | .hbm, ⟨12, _⟩ => ⟨S16x2048x64, .f32⟩
  | .hbm, ⟨13, _⟩ => ⟨S16x2048x64, .f32⟩
  | .hbm, ⟨14, _⟩ => ⟨S16x2048x64, .f32⟩
  | .hbm, ⟨15, _⟩ => ⟨S16x2048x64, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x1x64, .f32⟩
  | .hbm, ⟨22, _⟩ => ⟨S16x2048x64, .f32⟩
  | .hbm, ⟨23, _⟩ => ⟨S16x2048x64, .f32⟩
  | .hbm, ⟨24, _⟩ => ⟨S16x2048x64, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S1x1x64, .f32⟩
  | .hbm, ⟨31, _⟩ => ⟨S16x2048x64, .f32⟩
  | .hbm, ⟨32, _⟩ => ⟨S16x2048x64, .f32⟩
  | .hbm, ⟨33, _⟩ => ⟨S1x1x64, .f32⟩
  | .hbm, ⟨34, _⟩ => ⟨S16x2048x64, .f32⟩
  | .hbm, ⟨35, _⟩ => ⟨S16x2048x64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S1x1x64, .f32⟩
  | .hbm, ⟨41, _⟩ => ⟨S16x2048x64, .f32⟩
  | .hbm, ⟨42, _⟩ => ⟨S16x2048x64, .f32⟩
  | .hbm, ⟨43, _⟩ => ⟨S1x1x64, .f32⟩
  | .hbm, ⟨44, _⟩ => ⟨S16x2048x64, .f32⟩
  | .hbm, ⟨45, _⟩ => ⟨S16x2048x64, .f32⟩
  | .hbm, ⟨46, _⟩ => ⟨S_, .f32⟩
  | .hbm, ⟨47, _⟩ => ⟨S16x2048x64, .f32⟩
  | .hbm, ⟨48, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_cst : Ref sig .tc := ⟨.hbm, 46, rfl⟩
abbrev main_call0_v0 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  slices_S16x2x2048x2048_S16x1x2048x2048_0_0_0_0 : S16x2x2048x2048.Slices ![0, 0, 0, 0] S16x1x2048x2048
  shapeCasts_S16x1x2048x2048_S16x2048x2048 : S16x1x2048x2048.ShapeCasts S16x2048x2048
  slices_S16x2x2048x2048_S16x1x2048x2048_0_1_0_0 : S16x2x2048x2048.Slices ![0, 1, 0, 0] S16x1x2048x2048
  bcast_S_S16x2048x64 : S_.BroadcastsInDim S16x2048x64 (![] : Fin 0 → Fin S16x2048x64.rank)
  reducesTo_S16x2048x64_S64_d0_1 : S16x2048x64.ReducesTo [0, 1] S64
  h_S_ : 0 < S_.numel
  bcast_S_S64 : S_.BroadcastsInDim S64 (![] : Fin 0 → Fin S64.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  dot_S16x2048x2048_S16x2048x64_S16x2048x64_2_1_1_2_0_0_wf : DotDims.WF S16x2048x2048 S16x2048x64 S16x2048x64 [2] [1] [1] [2] [0] [0]
  dot_S16x2048x64_S64x64_S16x2048x64_2_1_01_0_n_n_wf : DotDims.WF S16x2048x64 S64x64 S16x2048x64 [2] [1] [0, 1] [0] [] []

variable [Facts₀]

def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S16x2048x64_S64x64_S16x2048x64_2_1_01_0_n_n : DotDims S16x2048x64 S64x64 S16x2048x64 where
  lhsContracting := [2]
  rhsContracting := [1]
  lhsNonContracting := [0, 1]
  rhsNonContracting := [0]
  lhsBatch := []
  rhsBatch := []
  wf := dot_S16x2048x64_S64x64_S16x2048x64_2_1_01_0_n_n_wf

class Facts : Prop extends Facts₀ where

variable [Facts]
-- ==== Proof.KPieces.lean ====
/-
  What each control case of the kernel body leaves in the three output blocks, as pure terms of the blocks it was given.

  The body at grid point (b, i) is handed: the edge block `x0 : [1, 2, 1024, 2048]` (both planes, rows 1024·i … of batch b),
  the node block `x1 : [1, 2048, 64]` (all nodes of batch b), and the transposed mixing matrix `x2 : [64, 64]`. From them
  it reads plane 0 and plane 1 of `x0` (`plane0`, `plane1`), all of `x1`, the 1024 rows of `x1` from row 1024·i
  (`ownRows`), and all of `x2`, and computes one [1024, 64] tile `tile` (the body's arithmetic, the generated payload
  `k0_pay3`). Then, whatever the case:
    · the activation block is `tile` with a unit axis in front;
    · the running column sums are the previous ones plus the column sums of `tile`;
    · the running column sums of squares are the previous ones plus the column sums of `tile · tile`.
  The two cases differ only in "previous": at i = 0 (case A) the body first stores zeros and reads them back; at i = 1
  (case B) it finds what the point before left.
-/
import proofs.«423968_j46677704573340_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Plane 0 of the edge block (the similarities). -/
abbrev plane0 (x0 : Vec F S1x2x1024x2048 .f32) : Vec F S1x1x1024x2048 .f32 :=
  View.ld x0 (Rect.unit (s := S1x2x1024x2048) ![0, 0, 0, 0] S1x1x1024x2048.size inb_S1x2x1024x2048_S1x1x1024x2048_0_0_0_0)
/-- Plane 1 of the edge block (the dissimilarities). -/
abbrev plane1 (x0 : Vec F S1x2x1024x2048 .f32) : Vec F S1x1x1024x2048 .f32 :=
  View.ld x0 (Rect.unit (s := S1x2x1024x2048) ![0, 1, 0, 0] S1x1x1024x2048.size inb_S1x2x1024x2048_S1x1x1024x2048_0_1_0_0)
/-- The point's own 1024 rows of the node block. -/
abbrev ownRows (i : grid0.Coords) (x1 : Vec F S1x2048x64 .f32) : Vec F S1x1024x64 .f32 :=
  View.ld x1 (Rect.unit (s := S1x2048x64) (k0_off1 i) S1x1024x64.size (k0_off1_inb i))

/-- The [1024, 64] tile of activations the body computes at a point. -/
abbrev tile (i : grid0.Coords) (x0 : Vec F S1x2x1024x2048 .f32) (x1 : Vec F S1x2048x64 .f32) (x2 : Vec F S64x64 .f32) :
    FVec F S1024x64 .f32 :=
  k0_pay3 (plane0 x0) (plane1 x0) x1 (ownRows i x1) x2

section
variable (c : Dev nD) (i : grid0.Coords) (a2 : Memref sig .tc .vmem S1x2x1024x2048 .f32) (h2 : a2.IsWhole)
  (a3 : Memref sig .tc .vmem S1x2048x64 .f32) (h3 : a3.IsWhole) (a4 : Memref sig .tc .vmem S64x64 .f32) (h4 : a4.IsWhole)
  (a5 : Memref sig .tc .vmem S1x1024x64 .f32) (h5 : a5.IsWhole) (a6 : Memref sig .tc .vmem S1x1x64 .f32) (h6 : a6.IsWhole)
  (a7 : Memref sig .tc .vmem S1x1x64 .f32) (h7 : a7.IsWhole)
  (x0 : Vec F S1x2x1024x2048 .f32) (x1 : Vec F S1x2048x64 .f32) (x2 : Vec F S64x64 .f32)

/-- Case A, the activation block: the tile. -/
theorem outA_3 (hc : cond0_0 i) :
    out0_A_3 c i a2 h2 a3 h3 a4 h4 a5 h5 a6 h6 a7 h7 hc x0 x1 x2
      = shapeCast S1x1024x64 (tile i x0 x1 x2) shapeCasts_S1024x64_S1x1024x64 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz3]
  simp only [View.readAt_eq_ld, h2.read_unread, h3.read_unread, h4.read_unread, View.ld_unit_zero (S := S1x2048x64) hz3,
    View.ld_unit_zero (S := S64x64) hz2]
  rfl

/-- Case B, the activation block: the tile. -/
theorem outB_3 (hc : ¬cond0_0 i) (xo4 xo5 : Vec F S1x1x64 .f32) :
    out0_B_3 c i a2 h2 a3 h3 a4 h4 a5 h5 a6 h6 a7 h7 hc x0 x1 x2 xo4 xo5
      = shapeCast S1x1024x64 (tile i x0 x1 x2) shapeCasts_S1024x64_S1x1024x64 := by
  unfold out0_B_3
  rw [View.read_writes_eq_canon _ _ _ (cover0_B_3 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, View.ld_unit_zero (S := S1x2048x64) hz3,
    View.ld_unit_zero (S := S64x64) hz2]
  rfl

/-- Case B, the column sums: what was there plus the tile's column sums. -/
theorem outB_4 (hc : ¬cond0_0 i) (xo4 xo5 : Vec F S1x1x64 .f32) :
    out0_B_4 c i a2 h2 a3 h3 a4 h4 a5 h5 a6 h6 a7 h7 hc x0 x1 x2 xo4 xo5
      = k0_pay1 (k0_pay7 xo4) (k0_pay8 (plane0 x0) (plane1 x0) x1 (ownRows i x1) x2) := by
  unfold out0_B_4
  rw [View.read_writes_eq_canon _ _ _ (cover0_B_4 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, h6.read_unread,
    View.ld_unit_zero (S := S1x2048x64) hz3, View.ld_unit_zero (S := S64x64) hz2, View.ld_unit_zero (S := S1x1x64) hz3]
  rfl

/-- Case B, the column sums of squares: what was there plus the column sums of the tile's squares. -/
theorem outB_5 (hc : ¬cond0_0 i) (xo4 xo5 : Vec F S1x1x64 .f32) :
    out0_B_5 c i a2 h2 a3 h3 a4 h4 a5 h5 a6 h6 a7 h7 hc x0 x1 x2 xo4 xo5
      = k0_pay2 (tile i x0 x1 x2) xo5 := by
  unfold out0_B_5
  rw [View.read_writes_eq_canon _ _ _ (cover0_B_5 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, h7.read_unread,
    View.ld_unit_zero (S := S1x2048x64) hz3, View.ld_unit_zero (S := S64x64) hz2, View.ld_unit_zero (S := S1x1x64) hz3]
  rfl

/-- Case A, the column sums: the zeros just stored, read back, plus the tile's column sums. -/
theorem outA_4 (hc : cond0_0 i) :
    out0_A_4 c i a2 h2 a3 h3 a4 h4 a5 h5 a6 h6 a7 h7 hc x0 x1 x2
      = k0_pay1 (k0_pay7 (k0_pay5 (F := F))) (k0_pay8 (plane0 x0) (plane1 x0) x1 (ownRows i x1) x2) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread,
    View.ld_unit_zero (S := S1x2048x64) hz3, View.ld_unit_zero (S := S64x64) hz2]
  rfl

/-- Case A, the column sums of squares: the zeros just stored, read back, plus the column sums of the tile's squares. -/
theorem outA_5 (hc : cond0_0 i) :
    out0_A_5 c i a2 h2 a3 h3 a4 h4 a5 h5 a6 h6 a7 h7 hc x0 x1 x2
      = k0_pay2 (tile i x0 x1 x2) (k0_pay6 (F := F)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread,
    View.ld_unit_zero (S := S1x2048x64) hz3, View.ld_unit_zero (S := S64x64) hz2]
  rfl

end

end Cert.KernelIdeal.Pieces

end
-- ==== Proof.KTile.lean ====
/-
  The body's arithmetic read at an index, in the extended reals.

  With `s, d : [1, 1, 1024, 2048]` the two edge planes, `xs : [1, 2048, 64]` all nodes of the batch, `own : [1, 1024, 64]`
  the tile's own rows and `wt : [64, 64]` the transposed mixing matrix, the tile at row `p`, channel `o` is
      ∑_f (own[0,p,f] + (∑ⱼ (s[0,0,p,j] - d[0,0,p,j]) · xs[0,j,f]) · 2⁻¹¹) · wt[f,o]:
  a matrix product into a zero accumulator is the plain sum of products over the contracted axis, a shape cast that only
  drops or adds unit axes reads the same row-major position, and the scale is a broadcast scalar.
  The running sums: channel `o` of the new column sums is the old value plus `∑ₚ tile[p,o]`, and of the new sums of
  squares the old value plus `∑ₚ tile[p,o] · tile[p,o]` (a lane-wise reduction over the row axis from a zero
  accumulator is the sum over the rows).
-/
import proofs.«423968_j46677704573340_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The layout steps -/

/-- A `[1, 1, a, b]` plane cast to `[a, b]` reads, at `(p, j)`, the operand at `(0, 0, p, j)`. -/
theorem cast_plane (v : FVec Ideal S1x1x1024x2048 .f32) (p : Fin 1024) (j : Fin 2048) :
    shapeCast S1024x2048 v shapeCasts_S1x1x1024x2048_S1024x2048 (ix2 p j) = v (ix4 (0 : Fin 1) (0 : Fin 1) p j) :=
  shapeCast_apply v _ _ _ (by
    rw [Shape.rowMajor_val_four, Shape.rowMajor_val_two]
    show ((0 * 1 + 0) * 1024 + p.val) * 2048 + j.val = p.val * 2048 + j.val
    omega)

/-! ## The two matrix products -/

theorem lhsA_0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhsA_1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhsA_0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhsA_1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The neighbour product `[1024, 2048] × [2048, 64]` into zeros, at `(p, f)`: the sum over the 2048 neighbours. -/
theorem matmulA_apply (l : FVec Ideal S1024x2048 .f32) (r : FVec Ideal S2048x64 .f32) (p : Fin 1024) (f : Fin 64) :
    matmul dot_S1024x2048_S2048x64_S1024x64_1_0_0_1_n_n none l r (constant S1024x64 .f32 0x00000000#32) (ix2 p f) = ∑ j : Fin 2048, l (ix2 p j) * r (ix2 j f) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p f) ((contrEquiv1 dot_S1024x2048_S2048x64_S1024x64_1_0_0_1_n_n 2048 rfl rfl).symm k) = ix2 p k := funext fun a => Fin.ext (by
    match a with
    | ⟨0, _⟩ => exact lhsA_0 _ _
    | ⟨1, _⟩ => exact (lhsA_1 _ _).trans hk)
  have er : dot_S1024x2048_S2048x64_S1024x64_1_0_0_1_n_n.rhsIdx (ix2 p f) ((contrEquiv1 dot_S1024x2048_S2048x64_S1024x64_1_0_0_1_n_n 2048 rfl rfl).symm k) = ix2 k f := funext fun a => Fin.ext (by
    match a with
    | ⟨0, _⟩ => exact (rhsA_0 _ _).trans hk
    | ⟨1, _⟩ => exact rhsA_1 _ _)
  rw [el, er]

theorem lhsB_0 (i : S1024x64.Idx) (q : dot_S1024x64_S64x64_S1024x64_1_0_0_1_n_n.contr.Idx) : (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhsB_1 (i : S1024x64.Idx) (q : dot_S1024x64_S64x64_S1024x64_1_0_0_1_n_n.contr.Idx) : (dot_S1024x64_S64x64_S1024x64_1_0_0_1_n_n.lhsIdx i q 1).val = (q ⟨0, by decide⟩).val :=
  dot_S1024x64_S64x64_S1024x64_1_0_0_1_n_n.lhsIdx_val_of_single rfl i q
theorem rhsB_0 (i : S1024x64.Idx) (q : dot_S1024x64_S64x64_S1024x64_1_0_0_1_n_n.contr.Idx) : (dot_S1024x64_S64x64_S1024x64_1_0_0_1_n_n.rhsIdx i q 0).val = (q ⟨0, by decide⟩).val :=
  dot_S1024x64_S64x64_S1024x64_1_0_0_1_n_n.rhsIdx_val_of_single rfl i q
theorem rhsB_1 (i : S1024x64.Idx) (q : dot_S1024x64_S64x64_S1024x64_1_0_0_1_n_n.contr.Idx) : (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The channel mix `[1024, 64] × [64, 64]` into zeros, at `(p, o)`: the sum over the 64 input channels. -/
theorem matmulB_apply (l : FVec Ideal S1024x64 .f32) (r : FVec Ideal S64x64 .f32) (p : Fin 1024) (o : Fin 64) :
    matmul dot_S1024x64_S64x64_S1024x64_1_0_0_1_n_n none l r (constant S1024x64 .f32 0x00000000#32) (ix2 p o) = ∑ f : Fin 64, l (ix2 p f) * r (ix2 f o) := by
  simp only [matmul]
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 p o) ((contrEquiv1 dot_S1024x64_S64x64_S1024x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S1024x64_S64x64_S1024x64_1_0_0_1_n_n.rhsIdx (ix2 p o) ((contrEquiv1 dot_S1024x64_S64x64_S1024x64_1_0_0_1_n_n 64 rfl rfl).symm k) = ix2 k o := funext fun a => Fin.ext (by
    match a with
    | ⟨0, _⟩ => exact (rhsB_0 _ _).trans hk
    | ⟨1, _⟩ => exact rhsB_1 _ _)
  rw [el, er]

/-! ## The tile -/

/-- The tile of activations at row `p`, channel `o`. -/
theorem tile_apply (s d : FVec Ideal S1x1x1024x2048 .f32) (xs : FVec Ideal S1x2048x64 .f32) (own : FVec Ideal S1x1024x64 .f32)
    (wt : FVec Ideal S64x64 .f32) (p : Fin 1024) (o : Fin 64) :
    k0_pay3 (F := Ideal) s d xs own wt (ix2 p o)
      = ∑ f : Fin 64, (own (ix3 (0 : Fin 1) p f)
          + (∑ j : Fin 2048, (s (ix4 (0 : Fin 1) (0 : Fin 1) p j) - d (ix4 (0 : Fin 1) (0 : Fin 1) p j)) * xs (ix3 (0 : Fin 1) j f))
            * Ideal.ofBits .f32 0x3A000000#32) * wt (ix2 f o) := by
  unfold k0_pay3
  rw [matmulB_apply]
  refine Finset.sum_congr rfl fun f _ => ?_
  rw [shapeCast_self, addf_apply, shapeCast_1ab_ab_apply, mulf_apply, broadcast_apply, matmulA_apply]
  refine congrArg (fun t => (own (ix3 (0 : Fin 1) p f) + t * Ideal.ofBits .f32 0x3A000000#32) * wt (ix2 f o)) ?_
  refine Finset.sum_congr rfl fun j _ => ?_
  rw [subf_apply, cast_plane, cast_plane, shapeCast_1ab_ab_apply]

/-! ## The running sums -/

/-- A lane-wise sum of a `[1024, 64]` tile over its rows from a zero accumulator, at channel `o`. -/
theorem colsum_apply (src : FVec Ideal S1024x64 .f32) (hφ : FKind.Formats .f32)
    (hacc : (0x00000000#32 : BitVec 32) = 0x00000000#32) (o : Fin 64) :
    multiReduction .add [0] S64 src 0x00000000#32 reduces_S1024x64_S64 hφ hacc (ix1 o) = ∑ p : Fin 1024, src (ix2 p o) := by
  refine (Ideal.multiReduction_add_single src 0x00000000#32 reduces_S1024x64_S64 hφ hacc (ix1 o)).trans ?_
  refine Finset.sum_congr rfl fun p _ => congrArg src (funext fun a => Fin.ext ?_)
  match a with
  | ⟨0, _⟩ => rfl
  | ⟨1, _⟩ => rfl

/-- The new column sums at channel `o`: the old value plus the sum of the tile's column. -/
theorem sums_apply (prev : FVec Ideal S1x1x64 .f32) (s d : FVec Ideal S1x1x1024x2048 .f32) (xs : FVec Ideal S1x2048x64 .f32)
    (own : FVec Ideal S1x1024x64 .f32) (wt : FVec Ideal S64x64 .f32) (o : Fin 64) :
    k0_pay1 (F := Ideal) (k0_pay7 prev) (k0_pay8 s d xs own wt) (ix3 (0 : Fin 1) (0 : Fin 1) o)
      = prev (ix3 (0 : Fin 1) (0 : Fin 1) o) + ∑ p : Fin 1024, k0_pay3 (F := Ideal) s d xs own wt (ix2 p o) := by
  unfold k0_pay1 k0_pay7 k0_pay8
  dsimp only
  rw [shapeCast_ab_1ab_apply, addf_apply, shapeCast_1ab_ab_apply, shapeCast_a_1a_apply, colsum_apply]

/-- The new column sums of squares at channel `o`: the old value plus the sum of the squares of the tile's column. -/
theorem sqsums_apply (t : FVec Ideal S1024x64 .f32) (prev : FVec Ideal S1x1x64 .f32) (o : Fin 64) :
    k0_pay2 (F := Ideal) t prev (ix3 (0 : Fin 1) (0 : Fin 1) o)
      = prev (ix3 (0 : Fin 1) (0 : Fin 1) o) + ∑ p : Fin 1024, t (ix2 p o) * t (ix2 p o) := by
  unfold k0_pay2
  dsimp only
  rw [shapeCast_ab_1ab_apply, addf_apply, shapeCast_1ab_ab_apply, shapeCast_a_1a_apply, colsum_apply]
  rfl

/-- The zero block the reset stores reads `0` everywhere. -/
theorem zeros4_apply (i : S1x1x64.Idx) : k0_pay5 (F := Ideal) i = 0 := by
  obtain ⟨a, b, o, rfl⟩ : ∃ (a : Fin 1) (b : Fin 1) (o : Fin 64), i = ix3 a b o := ⟨i 0, i 1, i 2, eq_ix3 i⟩
  unfold k0_pay5
  rw [shapeCast_ab_1ab_apply, broadcast_apply]
  exact Ideal.ofBits_zero_f32
theorem zeros5_apply (i : S1x1x64.Idx) : k0_pay6 (F := Ideal) i = 0 := by
  obtain ⟨a, b, o, rfl⟩ : ∃ (a : Fin 1) (b : Fin 1) (o : Fin 64), i = ix3 a b o := ⟨i 0, i 1, i 2, eq_ix3 i⟩
  unfold k0_pay6
  rw [shapeCast_ab_1ab_apply, broadcast_apply]
  exact Ideal.ofBits_zero_f32

end Cert.KernelIdeal.Tile

end
-- ==== Proof.Spec.lean ====
/-
  What both programs compute, as mathematics over the argument arrays, index by index, in the extended reals.

  Arguments: node features `x : [16, 2048, 64]`, edge features `e : [16, 2, 2048, 2048]` (plane 0 the similarities,
  plane 1 the dissimilarities), the channel-mixing matrix `w : [64, 64]`, and per-channel `γ, β : [64]`.

    agg b n f   = ∑ⱼ (e[b,0,n,j] - e[b,1,n,j]) · x[b,j,f]                      the signed neighbour sum
    act b n o   = ∑_f (x[b,n,f] + agg b n f · 2⁻¹¹) · w[o,f]                    residual, then the channel mix
    mean o      = (∑_b ∑_n act b n o) / 32768
    varTwoPass  = (∑_b ∑_n (act - mean)·(act - mean)) / 32768                   the mean squared deviation
    varOnePass  = max ((∑_b ∑_n act·act) / 32768 - mean·mean) 0                 mean of squares less squared mean, clamped
    normalized v = max (γ·(act - mean)·rsqrt (v + ε) + β) 0                      for either variance `v`

  One program normalizes with `varTwoPass`, the other with `varOnePass`; everything else is the same term. Float words
  are kept as words: the same word on both sides is never evaluated.
-/
import Idealize.ShloMosaic.PureOps.Ideal.Laws
import Idealize.ShloMosaic.Lib.ValueIdx

noncomputable section

namespace Cert.Spec

open Idealize.ShloMosaic Idealize.ShloMosaic.ValueIdx

abbrev SNode : Shape := ⟨3, ![16, 2048, 64]⟩
abbrev SEdge : Shape := ⟨4, ![16, 2, 2048, 2048]⟩
abbrev SMix : Shape := ⟨2, ![64, 64]⟩
abbrev SChan : Shape := ⟨1, ![64]⟩

/-- The count `32768 = 16 · 2048`, as the programs spell it. -/
abbrev count : EReal := Ideal.ofBits .f32 0x47000000#32
/-- The variance's guard `ε`, as the programs spell it (the same word in both). -/
abbrev eps : EReal := Ideal.ofBits .f32 0x3727C5AC#32
/-- The scale `2⁻¹¹ = 1/2048`, as the kernel spells it. -/
abbrev invN : EReal := Ideal.ofBits .f32 0x3A000000#32

variable (x : SNode.Idx → EReal) (e : SEdge.Idx → EReal) (w : SMix.Idx → EReal)

/-- The signed neighbour sum of node `n` of batch `b`, channel `f`. -/
def agg (b : Fin 16) (n : Fin 2048) (f : Fin 64) : EReal :=
  ∑ j : Fin 2048, (e (ix4 b (0 : Fin 2) n j) - e (ix4 b (1 : Fin 2) n j)) * x (ix3 b j f)

/-- The activation before normalisation: the node's own features plus the scaled neighbour sum, mixed by `w`. -/
def act (b : Fin 16) (n : Fin 2048) (o : Fin 64) : EReal :=
  ∑ f : Fin 64, (x (ix3 b n f) + agg x e b n f * invN) * w (ix2 o f)

/-- A sum over the whole batch: every batch member and every node. -/
def total (g : Fin 16 → Fin 2048 → EReal) : EReal := ∑ b : Fin 16, ∑ n : Fin 2048, g b n

/-- The per-channel mean of the activation over the batch. -/
def mean (o : Fin 64) : EReal := Ideal.div (total fun b n => act x e w b n o) count

/-- The biased variance as the mean squared deviation. -/
def varTwoPass (o : Fin 64) : EReal :=
  Ideal.div (total fun b n => (act x e w b n o - mean x e w o) * (act x e w b n o - mean x e w o)) count

/-- The biased variance as the mean of squares less the squared mean, clamped below at zero. -/
def varOnePass (o : Fin 64) : EReal :=
  max (Ideal.div (total fun b n => act x e w b n o * act x e w b n o) count - mean x e w o * mean x e w o) 0

/-- The normalized, scaled, shifted and rectified activation, for a given per-channel variance `v`. -/
def normalized (v : Fin 64 → EReal) (γ β : SChan.Idx → EReal) (b : Fin 16) (n : Fin 2048) (o : Fin 64) : EReal :=
  max (γ (ix1 o) * (act x e w b n o - mean x e w o) * Ideal.rsqrt (v o + eps) + β (ix1 o))
    (Ideal.ofBits .f32 0x00000000#32)

end Cert.Spec

end
-- ==== Proof.KRun.lean ====
/-
  The kernel's three result arrays after the run, as functions of the argument arrays.

  The grid has 32 points; point `t` is batch member `b = t / 2`, row tile `i = t % 2`. At point `t` the body is handed
  rows `1024·i …` of both edge planes of batch `b`, all nodes of batch `b`, and the transposed mixing matrix; the tile it
  computes is therefore the specification's activation at `(b, 1024·i + p, o)`.
    · The activation array: point `t` writes its tile back as block `(b, i)`; the 32 blocks tile the array.
    · The per-batch column sums: the even point leaves `0 + (sum of its tile's columns)`, the odd point adds its own tile's
      to that and writes the block back; so entry `(b, 0, o)` is the sum of the activation over all 2048 nodes of batch `b`.
    · The per-batch column sums of squares: the same with squares.
-/
import proofs.«423968_j46677704573340_3_alg».proof.Proof.KPieces
import proofs.«423968_j46677704573340_3_alg».proof.Proof.KTile
import proofs.«423968_j46677704573340_3_alg».proof.Proof.Spec
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Pieces Idealize.ShloMosaic.ValueIdx

variable (m : (ℓ : Loc nD τ sig) → Buf (Elt Ideal) ℓ)

/-- The node features as launched, typed as an array of extended reals. -/
abbrev xarr (c : Dev nD) : Cert.Spec.SNode.Idx → EReal := m ((c : Thread nD τ).loc main_arg0)
/-- The edge features as launched. -/
abbrev earr (c : Dev nD) : Cert.Spec.SEdge.Idx → EReal := m ((c : Thread nD τ).loc main_arg1)
/-- The mixing matrix as launched. -/
abbrev warr (c : Dev nD) : Cert.Spec.SMix.Idx → EReal := m ((c : Thread nD τ).loc main_arg2)

/-! ## The schedule, decided over the grid -/

/-- Which block of its array each window is on at point `t`: batch `t / 2` everywhere, row tile `t % 2` for the edge
    block and the activation block. -/
theorem idx_facts : ∀ t : Fin cfg0.N,
    win0_0.index t (0 : Fin 4) = t.val / 2 ∧ win0_0.index t (1 : Fin 4) = 0 ∧ win0_0.index t (2 : Fin 4) = t.val % 2 ∧ win0_0.index t (3 : Fin 4) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = 0 ∧ win0_4.index t (2 : Fin 3) = 0
    ∧ win0_5.index t (0 : Fin 3) = t.val / 2 ∧ win0_5.index t (1 : Fin 3) = 0 ∧ win0_5.index t (2 : Fin 3) = 0 :=
  (by decide +kernel : ∀ t : Fin grid0.N, _)

/-- Where the tile's own rows start in the node block: row `1024 · (t % 2)`. -/
theorem off_facts : ∀ t : Fin cfg0.N,
    k0_off1 (grid0.coords t) (0 : Fin 3) = 0 ∧ k0_off1 (grid0.coords t) (1 : Fin 3) = 1024 * (t.val % 2)
    ∧ k0_off1 (grid0.coords t) (2 : Fin 3) = 0 :=
  (by decide +kernel : ∀ t : Fin grid0.N, _)

/-! ## The input blocks, read off the argument arrays -/

/-- The edge block at point `t`. -/
abbrev eblk (c : Dev nD) (t : Fin cfg0.N) : Vec Ideal S1x2x1024x2048 .f32 := iblk m c 0 t
/-- The node block at point `t`. -/
abbrev nblk (c : Dev nD) (t : Fin cfg0.N) : Vec Ideal S1x2048x64 .f32 := iblk m c 1 t
/-- The transposed mixing matrix, as every point finds it. -/
abbrev wblk (c : Dev nD) (t : Fin cfg0.N) : Vec Ideal S64x64 .f32 := iblk m c 2 t

/-- The edge block at point `t = 2b + i` holds rows `1024·i …` of both planes of batch `b`. -/
theorem eblk_apply (c : Dev nD) (t : Fin cfg0.N) (b : Fin 16) (i : Fin 2) (ht : t.val = 2 * b.val + i.val)
    (u : Fin 1) (pl : Fin 2) (p : Fin 1024) (j : Fin 2048) :
    eblk m c t (ix4 u pl p j) = earr m c (ix4 b pl (⟨1024 * i.val + p.val, by omega⟩ : Fin 2048) j) := by
  obtain ⟨e0, e1, e2, e3, -⟩ := idx_facts t
  show iblk m c 0 t (ix4 u pl p j) = _
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t (0 : Fin 4) * 1 + 1 * u.val = b.val; omega
  | ⟨1, _⟩ => show win0_0.index t (1 : Fin 4) * 2 + 1 * pl.val = pl.val; omega
  | ⟨2, _⟩ => show win0_0.index t (2 : Fin 4) * 1024 + 1 * p.val = 1024 * i.val + p.val; omega
  | ⟨3, _⟩ => show win0_0.index t (3 : Fin 4) * 2048 + 1 * j.val = j.val; omega

/-- The node block at point `t = 2b + i` holds all nodes of batch `b`. -/
theorem nblk_apply (c : Dev nD) (t : Fin cfg0.N) (b : Fin 16) (i : Fin 2) (ht : t.val = 2 * b.val + i.val)
    (u : Fin 1) (n : Fin 2048) (f : Fin 64) :
    nblk m c t (ix3 u n f) = xarr m c (ix3 b n f) := by
  obtain ⟨-, -, -, -, e0, e1, e2, -⟩ := idx_facts t
  show iblk m c 1 t (ix3 u n f) = _
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t (0 : Fin 3) * 1 + 1 * u.val = b.val; omega
  | ⟨1, _⟩ => show win0_1.index t (1 : Fin 3) * 2048 + 1 * n.val = n.val; omega
  | ⟨2, _⟩ => show win0_1.index t (2 : Fin 3) * 64 + 1 * f.val = f.val; omega

/-- The host transposes the mixing matrix before the region: entry `(f, o)` of what the region finds is `w[o, f]`. -/
theorem wblk_apply (c : Dev nD) (t : Fin cfg0.N) (f o : Fin 64) :
    wblk m c t (ix2 f o) = warr m c (ix2 o f) := by
  obtain ⟨-, -, -, -, -, -, -, e0, e1, -⟩ := idx_facts t
  have hv : (V m c main_v0 : S64x64.Idx → EReal)
      = transpose S64x64 [1, 0] (m ((c : Thread nD τ).loc main_arg2)) transposes_S64x64_S64x64_1_0 := by
    show StableHlo.after hostOps0 (fun b => m (c, b)) (Proc.devRef .tc main_v0) = _
    after_results
  show iblk m c 2 t (ix2 f o) = _
  unfold iblk
  rw [View.read_apply]
  show V m c main_v0 _ = _
  rw [hv]
  refine (congrArg _ (funext fun a => Fin.ext ?_)).trans (transpose_ix2_apply _ _ f o)
  match a with
  | ⟨0, _⟩ => show win0_2.index t (0 : Fin 2) * 64 + 1 * f.val = f.val; omega
  | ⟨1, _⟩ => show win0_2.index t (1 : Fin 2) * 64 + 1 * o.val = o.val; omega

/-! ## The tile at a point is the activation -/

/-- The [1024, 64] tile the body computes at point `t`. -/
abbrev tileAt (c : Dev nD) (t : Fin cfg0.N) : FVec Ideal S1024x64 .f32 :=
  tile (grid0.coords t) (eblk m c t) (nblk m c t) (wblk m c t)

/-- At point `t = 2b + i`, row `p` and channel `o` of the tile is the activation of node `1024·i + p` of batch `b`. -/
theorem tileAt_apply (c : Dev nD) (t : Fin cfg0.N) (b : Fin 16) (i : Fin 2) (ht : t.val = 2 * b.val + i.val)
    (p : Fin 1024) (o : Fin 64) :
    tileAt m c t (ix2 p o)
      = Cert.Spec.act (xarr m c) (earr m c) (warr m c) b (⟨1024 * i.val + p.val, by omega⟩ : Fin 2048) o := by
  obtain ⟨o0, o1, o2⟩ := off_facts t
  have hi : t.val % 2 = i.val := by omega
  show k0_pay3 (F := Ideal) (plane0 (eblk m c t)) (plane1 (eblk m c t)) (nblk m c t) (ownRows (grid0.coords t) (nblk m c t)) (wblk m c t) (ix2 p o) = _
  rw [Tile.tile_apply]
  unfold Cert.Spec.act Cert.Spec.agg
  refine Finset.sum_congr rfl fun f _ => ?_
  have hown : ownRows (grid0.coords t) (nblk m c t) (ix3 (0 : Fin 1) p f)
      = xarr m c (ix3 b (⟨1024 * i.val + p.val, by omega⟩ : Fin 2048) f) := by
    show nblk m c t _ = _
    refine (congrArg (nblk m c t) (funext fun a => Fin.ext ?_)).trans
      (nblk_apply m c t b i ht (0 : Fin 1) (⟨1024 * i.val + p.val, by omega⟩ : Fin 2048) f)
    match a with
    | ⟨0, _⟩ => show k0_off1 (grid0.coords t) (0 : Fin 3) + 1 * 0 = 0; omega
    | ⟨1, _⟩ => show k0_off1 (grid0.coords t) (1 : Fin 3) + 1 * p.val = 1024 * i.val + p.val; omega
    | ⟨2, _⟩ => show k0_off1 (grid0.coords t) (2 : Fin 3) + 1 * f.val = f.val; omega
  have hp0 : ∀ j : Fin 2048, plane0 (eblk m c t) (ix4 (0 : Fin 1) (0 : Fin 1) p j)
      = earr m c (ix4 b (0 : Fin 2) (⟨1024 * i.val + p.val, by omega⟩ : Fin 2048) j) := fun j => by
    show eblk m c t _ = _
    refine (congrArg (eblk m c t) (funext fun a => Fin.ext ?_)).trans (eblk_apply m c t b i ht (0 : Fin 1) (0 : Fin 2) p j)
    match a with
    | ⟨0, _⟩ => rfl
    | ⟨1, _⟩ => rfl
    | ⟨2, _⟩ => show 0 + 1 * p.val = p.val; omega
    | ⟨3, _⟩ => show 0 + 1 * j.val = j.val; omega
  have hp1 : ∀ j : Fin 2048, plane1 (eblk m c t) (ix4 (0 : Fin 1) (0 : Fin 1) p j)
      = earr m c (ix4 b (1 : Fin 2) (⟨1024 * i.val + p.val, by omega⟩ : Fin 2048) j) := fun j => by
    show eblk m c t _ = _
    refine (congrArg (eblk m c t) (funext fun a => Fin.ext ?_)).trans (eblk_apply m c t b i ht (0 : Fin 1) (1 : Fin 2) p j)
    match a with
    | ⟨0, _⟩ => rfl
    | ⟨1, _⟩ => rfl
    | ⟨2, _⟩ => show 0 + 1 * p.val = p.val; omega
    | ⟨3, _⟩ => show 0 + 1 * j.val = j.val; omega
  rw [hown, wblk_apply]
  refine congrArg (fun s : EReal => (xarr m c (ix3 b (⟨1024 * i.val + p.val, by omega⟩ : Fin 2048) f)
    + s * Ideal.ofBits .f32 0x3A000000#32) * warr m c (ix2 o f)) ?_
  refine Finset.sum_congr rfl fun j _ => ?_
  rw [hp0, hp1, nblk_apply m c t b i ht]

/-! ## What the output blocks hold after each point -/

/-- The column sums of the tile at point `t`. -/
def colSum (c : Dev nD) (t : Fin cfg0.N) (o : Fin 64) : EReal := ∑ p : Fin 1024, tileAt m c t (ix2 p o)
/-- The column sums of the squares of the tile at point `t`. -/
def colSqSum (c : Dev nD) (t : Fin cfg0.N) (o : Fin 64) : EReal :=
  ∑ p : Fin 1024, tileAt m c t (ix2 p o) * tileAt m c t (ix2 p o)

/-- After every point the activation block holds the point's tile. -/
theorem out3_eq (c : Dev nD) (t : Fin cfg0.N) :
    (outsAt0 m c t.val t.isLt).1 = shapeCast S1x1024x64 (tileAt m c t) shapeCasts_S1024x64_S1x1024x64 := by
  by_cases h0 : t.val % 2 = 0
  · rw [outsAt0_A m c t h0]
    dsimp only
    exact outA_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) ((hcond0_0 t).mpr h0)
  · rw [outsAt0_B m c t h0]
    dsimp only
    exact outB_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (fun h => h0 ((hcond0_0 t).mp h)) _ _

/-- After an even point the column sums hold `0 +` the tile's column sums. -/
theorem out4_even (c : Dev nD) (t : Fin cfg0.N) (h0 : t.val % 2 = 0) (o : Fin 64) :
    (outsAt0 m c t.val t.isLt).2.1 (ix3 (0 : Fin 1) (0 : Fin 1) o) = 0 + colSum m c t o := by
  rw [outsAt0_A m c t h0]
  dsimp only
  rw [outA_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) ((hcond0_0 t).mpr h0), Tile.sums_apply, Tile.zeros4_apply]
  rfl

/-- After an even point the column sums of squares hold `0 +` those of the tile. -/
theorem out5_even (c : Dev nD) (t : Fin cfg0.N) (h0 : t.val % 2 = 0) (o : Fin 64) :
    (outsAt0 m c t.val t.isLt).2.2 (ix3 (0 : Fin 1) (0 : Fin 1) o) = 0 + colSqSum m c t o := by
  rw [outsAt0_A m c t h0]
  dsimp only
  rw [outA_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) ((hcond0_0 t).mpr h0), Tile.sqsums_apply, Tile.zeros5_apply]
  rfl

/-- The point before an odd point. -/
abbrev pred (t : Fin cfg0.N) : Fin cfg0.N := ⟨t.val - 1, Nat.lt_of_le_of_lt (Nat.sub_le _ _) t.isLt⟩

/-- After an odd point the column sums hold what the even point before left plus the tile's column sums. -/
theorem out4_odd (c : Dev nD) (t : Fin cfg0.N) (h0 : ¬t.val % 2 = 0) (o : Fin 64) :
    (outsAt0 m c t.val t.isLt).2.1 (ix3 (0 : Fin 1) (0 : Fin 1) o) = (0 + colSum m c (pred t) o) + colSum m c t o := by
  have hp : (pred t).val % 2 = 0 := by show (t.val - 1) % 2 = 0; omega
  rw [outsAt0_B m c t h0]
  dsimp only
  rw [outB_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (fun h => h0 ((hcond0_0 t).mp h)) _ _, Tile.sums_apply]
  exact congrArg (· + colSum m c t o) (out4_even m c (pred t) hp o)

/-- After an odd point the column sums of squares hold what the even point before left plus those of the tile. -/
theorem out5_odd (c : Dev nD) (t : Fin cfg0.N) (h0 : ¬t.val % 2 = 0) (o : Fin 64) :
    (outsAt0 m c t.val t.isLt).2.2 (ix3 (0 : Fin 1) (0 : Fin 1) o) = (0 + colSqSum m c (pred t) o) + colSqSum m c t o := by
  have hp : (pred t).val % 2 = 0 := by show (t.val - 1) % 2 = 0; omega
  rw [outsAt0_B m c t h0]
  dsimp only
  rw [outB_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (fun h => h0 ((hcond0_0 t).mp h)) _ _, Tile.sqsums_apply]
  exact congrArg (· + colSqSum m c t o) (out5_even m c (pred t) hp o)

/-! ## The activation array -/

/-- The activation, as one function over the whole `[16, 2048, 64]` array. -/
def actFn (c : Dev nD) : Cert.Spec.SNode.Idx → EReal := fun i => Cert.Spec.act (xarr m c) (earr m c) (warr m c) (i 0) (i 1) (i 2)
/-- The same, typed as contents of the kernel's first result array. -/
abbrev actArr (c : Dev nD) : Buf (Elt Ideal) ((c : Thread nD τ).loc main_v1_0) := actFn m c

/-- The activation block after point `t = 2b + i`, at `(u, p, o)`: the activation of node `1024·i + p` of batch `b`. -/
theorem blk3_apply (c : Dev nD) (t : Fin cfg0.N) (b : Fin 16) (i : Fin 2) (ht : t.val = 2 * b.val + i.val) (y : S1x1024x64.Idx) :
    shapeCast S1x1024x64 (tileAt m c t) shapeCasts_S1024x64_S1x1024x64 y
      = Cert.Spec.act (xarr m c) (earr m c) (warr m c) b (⟨1024 * i.val + (y 1).val, by have h1 : (y 1).val < 1024 := (y 1).isLt; have := i.isLt; omega⟩ : Fin 2048) (y 2) := by
  obtain ⟨u, p, o, rfl⟩ : ∃ (u : Fin 1) (p : Fin 1024) (o : Fin 64), y = ix3 u p o := ⟨y 0, y 1, y 2, eq_ix3 y⟩
  rw [shapeCast_ab_1ab_apply, tileAt_apply m c t b i ht]

/-- What point `t` writes back is block `t` of the activation array. -/
theorem flushed3_eq (c : Dev nD) (t : Fin cfg0.N) :
    (dats m 0 c).flushed 3 t = ((cfg0.win 3).blk t).view.read (Elt Ideal) (actArr m c) := by
  have hN : t.val < 32 := lt_of_lt_of_eq t.isLt (show cfg0.N = 32 from N_0)
  obtain ⟨-, -, -, -, -, -, -, -, -, e0, e1, e2, -⟩ := idx_facts t
  show (cfg0.win 3).cut (grid0.coords t) ((dats m 0 c).after 3 t) = _
  rw [after0_3, out3_eq]
  funext y
  refine (blk3_apply m c t ⟨t.val / 2, by omega⟩ ⟨t.val % 2, by omega⟩ (by show t.val = 2 * (t.val / 2) + t.val % 2; omega) y).trans ?_
  have h0 : (y 0).val < 1 := (y 0).isLt
  have h1 : (y 1).val < 1024 := (y 1).isLt
  have h2 : (y 2).val < 64 := (y 2).isLt
  show Cert.Spec.act (xarr m c) (earr m c) (warr m c) _ _ _ = actFn m c (((cfg0.win 3).blk t).view.emb y)
  unfold actFn
  refine congr (congr (congrArg (Cert.Spec.act (xarr m c) (earr m c) (warr m c)) (Fin.ext ?_)) (Fin.ext ?_)) (Fin.ext ?_)
  · show t.val / 2 = win0_3.index t (0 : Fin 3) * 1 + 1 * (y 0).val; omega
  · show 1024 * (t.val % 2) + (y 1).val = win0_3.index t (1 : Fin 3) * 1024 + 1 * (y 1).val; omega
  · show (y 2).val = win0_3.index t (2 : Fin 3) * 64 + 1 * (y 2).val; omega

/-- Every entry of the activation array is in the block of the point `2·b + n / 1024`. -/
theorem cover3 (c : Dev nD) (i : Cert.Spec.SNode.Idx) :
    ∃ t : Fin cfg0.N, (cfg0.win 3).flush t = true ∧ i ∈ ((cfg0.win 3).blk t).view.set := by
  have hN : cfg0.N = 32 := N_0
  have h0 : (i 0).val < 16 := (i 0).isLt
  have h1 : (i 1).val < 2048 := (i 1).isLt
  have h2 : (i 2).val < 64 := (i 2).isLt
  have ht : 2 * (i 0).val + (i 1).val / 1024 < cfg0.N := by omega
  obtain ⟨-, -, -, -, -, -, -, -, -, e0, e1, e2, -⟩ := idx_facts ⟨2 * (i 0).val + (i 1).val / 1024, ht⟩
  refine ⟨⟨2 * (i 0).val + (i 1).val / 1024, ht⟩, flush0_3 _, ?_⟩
  show i ∈ ((View.whole main_v1_0).slice (win0_3.rect ⟨2 * (i 0).val + (i 1).val / 1024, ht⟩)).set
  rw [View.set_slice_whole, Rect.mem_set_unit]
  intro a
  dsimp only at e0 e1 e2
  match a with
  | ⟨0, _⟩ => show win0_3.index ⟨2 * (i 0).val + (i 1).val / 1024, ht⟩ (0 : Fin 3) * 1 ≤ (i 0).val ∧ (i 0).val < win0_3.index ⟨2 * (i 0).val + (i 1).val / 1024, ht⟩ (0 : Fin 3) * 1 + 1; omega
  | ⟨1, _⟩ => show win0_3.index ⟨2 * (i 0).val + (i 1).val / 1024, ht⟩ (1 : Fin 3) * 1024 ≤ (i 1).val ∧ (i 1).val < win0_3.index ⟨2 * (i 0).val + (i 1).val / 1024, ht⟩ (1 : Fin 3) * 1024 + 1024; omega
  | ⟨2, _⟩ => show win0_3.index ⟨2 * (i 0).val + (i 1).val / 1024, ht⟩ (2 : Fin 3) * 64 ≤ (i 2).val ∧ (i 2).val < win0_3.index ⟨2 * (i 0).val + (i 1).val / 1024, ht⟩ (2 : Fin 3) * 64 + 64; omega

/-- THE ACTIVATION ARRAY after the run. -/
theorem final3 (c : Dev nD) : (dats m 0 c).arrAt 3 cfg0.N = actArr m c :=
  (dats m 0 c).arrAt_eq_of_cover 3 (actArr m c) (fun t _ => flushed3_eq m c t) (cover3 c)

/-! ## The per-batch sums -/

/-- A sum over the 2048 nodes is the sum over the first 1024 plus the sum over the last 1024 (from zero). -/
theorem sum_halves (g : Fin 2048 → EReal) :
    (0 + ∑ p : Fin 1024, g (⟨1024 * (0 : Fin 2).val + p.val, by have := p.isLt; show 1024 * 0 + p.val < 2048; omega⟩ : Fin 2048))
        + ∑ p : Fin 1024, g (⟨1024 * (1 : Fin 2).val + p.val, by have := p.isLt; show 1024 * 1 + p.val < 2048; omega⟩ : Fin 2048)
      = ∑ n : Fin 2048, g n := by
  rw [zero_add]
  symm
  calc ∑ n : Fin 2048, g n = ∑ n : Fin (1024 + 1024), g n := rfl
    _ = ∑ p : Fin 1024, g (Fin.castAdd 1024 p) + ∑ p : Fin 1024, g (Fin.natAdd 1024 p) := Fin.sum_univ_add _
    _ = _ := by
      refine congrArg₂ (· + ·) (Finset.sum_congr rfl fun p _ => congrArg g (Fin.ext ?_))
        (Finset.sum_congr rfl fun p _ => congrArg g (Fin.ext ?_))
      · show p.val = 1024 * 0 + p.val; omega
      · show 1024 + p.val = 1024 * 1 + p.val; omega

/-- The per-batch sums of the activation over the nodes, as one function over `[16, 1, 64]`. -/
def sumFn (c : Dev nD) : (⟨3, ![16, 1, 64]⟩ : Shape).Idx → EReal := fun i => ∑ n : Fin 2048, Cert.Spec.act (xarr m c) (earr m c) (warr m c) (i 0) n (i 2)
abbrev sumArr (c : Dev nD) : Buf (Elt Ideal) ((c : Thread nD τ).loc main_v1_1) := sumFn m c
/-- The per-batch sums of the squared activation over the nodes. -/
def sqFn (c : Dev nD) : (⟨3, ![16, 1, 64]⟩ : Shape).Idx → EReal :=
  fun i => ∑ n : Fin 2048, Cert.Spec.act (xarr m c) (earr m c) (warr m c) (i 0) n (i 2) * Cert.Spec.act (xarr m c) (earr m c) (warr m c) (i 0) n (i 2)
abbrev sqArr (c : Dev nD) : Buf (Elt Ideal) ((c : Thread nD τ).loc main_v1_2) := sqFn m c

/-- After the odd point `t = 2b + 1` the column sums hold, at channel `o`, the sum over all nodes of batch `b`. -/
theorem blk4_apply (c : Dev nD) (t : Fin cfg0.N) (b : Fin 16) (ht : t.val = 2 * b.val + 1) (y : S1x1x64.Idx) :
    (outsAt0 m c t.val t.isLt).2.1 y = ∑ n : Fin 2048, Cert.Spec.act (xarr m c) (earr m c) (warr m c) b n (y 2) := by
  obtain ⟨u, v, o, rfl⟩ : ∃ (u : Fin 1) (v : Fin 1) (o : Fin 64), y = ix3 u v o := ⟨y 0, y 1, y 2, eq_ix3 y⟩
  obtain rfl : u = 0 := Subsingleton.elim _ _
  obtain rfl : v = 0 := Subsingleton.elim _ _
  have h0 : ¬t.val % 2 = 0 := by omega
  rw [out4_odd m c t h0 o]
  unfold colSum
  rw [Finset.sum_congr rfl fun p _ => tileAt_apply m c (pred t) b (0 : Fin 2) (by show t.val - 1 = 2 * b.val + 0; omega) p o,
    Finset.sum_congr rfl fun p _ => tileAt_apply m c t b (1 : Fin 2) (by show t.val = 2 * b.val + 1; omega) p o]
  exact sum_halves fun n => Cert.Spec.act (xarr m c) (earr m c) (warr m c) b n o

/-- After the odd point `t = 2b + 1` the column sums of squares hold the sum of squares over all nodes of batch `b`. -/
theorem blk5_apply (c : Dev nD) (t : Fin cfg0.N) (b : Fin 16) (ht : t.val = 2 * b.val + 1) (y : S1x1x64.Idx) :
    (outsAt0 m c t.val t.isLt).2.2 y
      = ∑ n : Fin 2048, Cert.Spec.act (xarr m c) (earr m c) (warr m c) b n (y 2) * Cert.Spec.act (xarr m c) (earr m c) (warr m c) b n (y 2) := by
  obtain ⟨u, v, o, rfl⟩ : ∃ (u : Fin 1) (v : Fin 1) (o : Fin 64), y = ix3 u v o := ⟨y 0, y 1, y 2, eq_ix3 y⟩
  obtain rfl : u = 0 := Subsingleton.elim _ _
  obtain rfl : v = 0 := Subsingleton.elim _ _
  have h0 : ¬t.val % 2 = 0 := by omega
  rw [out5_odd m c t h0 o]
  have e1 : colSqSum m c (pred t) o
      = ∑ p : Fin 1024, Cert.Spec.act (xarr m c) (earr m c) (warr m c) b (⟨1024 * (0 : Fin 2).val + p.val, by have := p.isLt; show 1024 * 0 + p.val < 2048; omega⟩ : Fin 2048) o
          * Cert.Spec.act (xarr m c) (earr m c) (warr m c) b (⟨1024 * (0 : Fin 2).val + p.val, by have := p.isLt; show 1024 * 0 + p.val < 2048; omega⟩ : Fin 2048) o :=
    Finset.sum_congr rfl fun p _ => by
      rw [tileAt_apply m c (pred t) b (0 : Fin 2) (by show t.val - 1 = 2 * b.val + 0; omega) p o]
  have e2 : colSqSum m c t o
      = ∑ p : Fin 1024, Cert.Spec.act (xarr m c) (earr m c) (warr m c) b (⟨1024 * (1 : Fin 2).val + p.val, by have := p.isLt; show 1024 * 1 + p.val < 2048; omega⟩ : Fin 2048) o
          * Cert.Spec.act (xarr m c) (earr m c) (warr m c) b (⟨1024 * (1 : Fin 2).val + p.val, by have := p.isLt; show 1024 * 1 + p.val < 2048; omega⟩ : Fin 2048) o :=
    Finset.sum_congr rfl fun p _ => by
      rw [tileAt_apply m c t b (1 : Fin 2) (by show t.val = 2 * b.val + 1; omega) p o]
  rw [e1, e2]
  exact sum_halves fun n => Cert.Spec.act (xarr m c) (earr m c) (warr m c) b n o * Cert.Spec.act (xarr m c) (earr m c) (warr m c) b n o

/-- What an odd point writes back is its block of the per-batch sums. -/
theorem flushed4_eq (c : Dev nD) (t : Fin cfg0.N) (hf : (cfg0.win 4).flush t = true) :
    (dats m 0 c).flushed 4 t = ((cfg0.win 4).blk t).view.read (Elt Ideal) (sumArr m c) := by
  have hN : t.val < 32 := lt_of_lt_of_eq t.isLt (show cfg0.N = 32 from N_0)
  have hodd : t.val % 2 = 1 := (flush0_4 t).mp hf
  obtain ⟨-, -, -, -, -, -, -, -, -, -, -, -, e0, e1, e2, -⟩ := idx_facts t
  show (cfg0.win 4).cut (grid0.coords t) ((dats m 0 c).after 4 t) = _
  rw [after0_4]
  funext y
  refine (blk4_apply m c t ⟨t.val / 2, by omega⟩ (by show t.val = 2 * (t.val / 2) + 1; omega) y).trans ?_
  have h0 : (y 0).val < 1 := (y 0).isLt
  have h2 : (y 2).val < 64 := (y 2).isLt
  show _ = sumFn m c (((cfg0.win 4).blk t).view.emb y)
  unfold sumFn
  have eb : (⟨t.val / 2, by omega⟩ : Fin 16) = (((cfg0.win 4).blk t).view.emb y) 0 :=
    Fin.ext (by show t.val / 2 = win0_4.index t (0 : Fin 3) * 1 + 1 * (y 0).val; omega)
  have eo : (y 2 : Fin 64) = (((cfg0.win 4).blk t).view.emb y) 2 :=
    Fin.ext (by show (y 2).val = win0_4.index t (2 : Fin 3) * 64 + 1 * (y 2).val; omega)
  rw [eb, eo]

theorem flushed5_eq (c : Dev nD) (t : Fin cfg0.N) (hf : (cfg0.win 5).flush t = true) :
    (dats m 0 c).flushed 5 t = ((cfg0.win 5).blk t).view.read (Elt Ideal) (sqArr m c) := by
  have hN : t.val < 32 := lt_of_lt_of_eq t.isLt (show cfg0.N = 32 from N_0)
  have hodd : t.val % 2 = 1 := (flush0_5 t).mp hf
  obtain ⟨-, -, -, -, -, -, -, -, -, -, -, -, -, -, -, e0, e1, e2⟩ := idx_facts t
  show (cfg0.win 5).cut (grid0.coords t) ((dats m 0 c).after 5 t) = _
  rw [after0_5]
  funext y
  refine (blk5_apply m c t ⟨t.val / 2, by omega⟩ (by show t.val = 2 * (t.val / 2) + 1; omega) y).trans ?_
  have h0 : (y 0).val < 1 := (y 0).isLt
  have h2 : (y 2).val < 64 := (y 2).isLt
  show _ = sqFn m c (((cfg0.win 5).blk t).view.emb y)
  unfold sqFn
  have eb : (⟨t.val / 2, by omega⟩ : Fin 16) = (((cfg0.win 5).blk t).view.emb y) 0 :=
    Fin.ext (by show t.val / 2 = win0_5.index t (0 : Fin 3) * 1 + 1 * (y 0).val; omega)
  have eo : (y 2 : Fin 64) = (((cfg0.win 5).blk t).view.emb y) 2 :=
    Fin.ext (by show (y 2).val = win0_5.index t (2 : Fin 3) * 64 + 1 * (y 2).val; omega)
  rw [eb, eo]

/-- Every entry `(b, 0, o)` of the per-batch sums is in the block of the odd point `2b + 1`. -/
theorem cover4 (c : Dev nD) (i : (⟨3, ![16, 1, 64]⟩ : Shape).Idx) :
    ∃ t : Fin cfg0.N, (cfg0.win 4).flush t = true ∧ i ∈ ((cfg0.win 4).blk t).view.set := by
  have hN : cfg0.N = 32 := N_0
  have h0 : (i 0).val < 16 := (i 0).isLt
  have h1 : (i 1).val < 1 := (i 1).isLt
  have h2 : (i 2).val < 64 := (i 2).isLt
  have ht : 2 * (i 0).val + 1 < cfg0.N := by omega
  obtain ⟨-, -, -, -, -, -, -, -, -, -, -, -, e0, e1, e2, -⟩ := idx_facts ⟨2 * (i 0).val + 1, ht⟩
  refine ⟨⟨2 * (i 0).val + 1, ht⟩, (flush0_4 _).mpr (by show (2 * (i 0).val + 1) % 2 = 1; omega), ?_⟩
  show i ∈ ((View.whole main_v1_1).slice (win0_4.rect ⟨2 * (i 0).val + 1, ht⟩)).set
  rw [View.set_slice_whole, Rect.mem_set_unit]
  intro a
  dsimp only at e0 e1 e2
  match a with
  | ⟨0, _⟩ => show win0_4.index ⟨2 * (i 0).val + 1, ht⟩ (0 : Fin 3) * 1 ≤ (i 0).val ∧ (i 0).val < win0_4.index ⟨2 * (i 0).val + 1, ht⟩ (0 : Fin 3) * 1 + 1; omega
  | ⟨1, _⟩ => show win0_4.index ⟨2 * (i 0).val + 1, ht⟩ (1 : Fin 3) * 1 ≤ (i 1).val ∧ (i 1).val < win0_4.index ⟨2 * (i 0).val + 1, ht⟩ (1 : Fin 3) * 1 + 1; omega
  | ⟨2, _⟩ => show win0_4.index ⟨2 * (i 0).val + 1, ht⟩ (2 : Fin 3) * 64 ≤ (i 2).val ∧ (i 2).val < win0_4.index ⟨2 * (i 0).val + 1, ht⟩ (2 : Fin 3) * 64 + 64; omega

theorem cover5 (c : Dev nD) (i : (⟨3, ![16, 1, 64]⟩ : Shape).Idx) :
    ∃ t : Fin cfg0.N, (cfg0.win 5).flush t = true ∧ i ∈ ((cfg0.win 5).blk t).view.set := by
  have hN : cfg0.N = 32 := N_0
  have h0 : (i 0).val < 16 := (i 0).isLt
  have h1 : (i 1).val < 1 := (i 1).isLt
  have h2 : (i 2).val < 64 := (i 2).isLt
  have ht : 2 * (i 0).val + 1 < cfg0.N := by omega
  obtain ⟨-, -, -, -, -, -, -, -, -, -, -, -, -, -, -, e0, e1, e2⟩ := idx_facts ⟨2 * (i 0).val + 1, ht⟩
  refine ⟨⟨2 * (i 0).val + 1, ht⟩, (flush0_5 _).mpr (by show (2 * (i 0).val + 1) % 2 = 1; omega), ?_⟩
  show i ∈ ((View.whole main_v1_2).slice (win0_5.rect ⟨2 * (i 0).val + 1, ht⟩)).set
  rw [View.set_slice_whole, Rect.mem_set_unit]
  intro a
  dsimp only at e0 e1 e2
  match a with
  | ⟨0, _⟩ => show win0_5.index ⟨2 * (i 0).val + 1, ht⟩ (0 : Fin 3) * 1 ≤ (i 0).val ∧ (i 0).val < win0_5.index ⟨2 * (i 0).val + 1, ht⟩ (0 : Fin 3) * 1 + 1; omega
  | ⟨1, _⟩ => show win0_5.index ⟨2 * (i 0).val + 1, ht⟩ (1 : Fin 3) * 1 ≤ (i 1).val ∧ (i 1).val < win0_5.index ⟨2 * (i 0).val + 1, ht⟩ (1 : Fin 3) * 1 + 1; omega
  | ⟨2, _⟩ => show win0_5.index ⟨2 * (i 0).val + 1, ht⟩ (2 : Fin 3) * 64 ≤ (i 2).val ∧ (i 2).val < win0_5.index ⟨2 * (i 0).val + 1, ht⟩ (2 : Fin 3) * 64 + 64; omega

/-- THE PER-BATCH SUMS after the run. -/
theorem final4 (c : Dev nD) : (dats m 0 c).arrAt 4 cfg0.N = sumArr m c :=
  (dats m 0 c).arrAt_eq_of_cover 4 (sumArr m c) (fun t hf => flushed4_eq m c t hf) (cover4 c)

/-- THE PER-BATCH SUMS OF SQUARES after the run. -/
theorem final5 (c : Dev nD) : (dats m 0 c).arrAt 5 cfg0.N = sqArr m c :=
  (dats m 0 c).arrAt_eq_of_cover 5 (sqArr m c) (fun t hf => flushed5_eq m c t hf) (cover5 c)

end Cert.KernelIdeal.Run

end
-- ==== Proof.LibLeadingSum.lean ====
/-
  A general fact about the host's float sum (`stablehlo.reduce … add`) at the ideal values: a rank-3 array `[A, B, C]`
  summed over its two LEADING axes into `[C]`.

  At result index `j` the host's sum is the initial value plus the sum of the operand over the indices whose kept
  coordinate is `j`. Those indices are exactly the triples `(a, b, j)`, one for each pair `(a, b)`, so the sum is the
  double sum over `a` and `b`. Nothing is assumed of the extents or of the values (the extended reals form a commutative
  monoid under addition: regrouping a finite sum is free of any finiteness assumption).
-/
import Idealize.ShloMosaic.PureOps.Ideal.Laws
import Idealize.ShloMosaic.Lib.ValueIdx

noncomputable section

namespace Cert.LeadingSum

open Idealize.ShloMosaic Idealize.ShloMosaic.ValueIdx

/-- The indices of `[A, B, C]` that drop to `j` when the two leading axes are removed are the triples `(a, b, j 0)`:
    the operand summed over them is the double sum over `a` and `b`. -/
theorem sum_filter_drop_lead2 {A B C : Nat} {M : Type*} [AddCommMonoid M]
    (h : (⟨3, ![A, B, C]⟩ : Shape).ReducesTo [0, 1] ⟨1, ![C]⟩) (x : (⟨3, ![A, B, C]⟩ : Shape).Idx → M)
    (j : (⟨1, ![C]⟩ : Shape).Idx) :
    (∑ i ∈ Finset.univ.filter (fun i => h.drop i = j), x i) = ∑ a : Fin A, ∑ b : Fin B, x (ix3 a b (j 0)) := by
  rw [← Fintype.sum_prod_type' (f := fun a b => x (ix3 a b (j 0)))]
  have hd : ∀ i : (⟨3, ![A, B, C]⟩ : Shape).Idx, (h.drop i 0 : Nat) = i 2 := fun i => rfl
  refine Finset.sum_bij' (fun i _ => ((i 0, i 1) : Fin A × Fin B)) (fun p _ => ix3 p.1 p.2 (j 0))
    (fun _ _ => Finset.mem_univ _) ?_ ?_ (fun _ _ => rfl) ?_
  · intro p _
    rw [Finset.mem_filter]
    refine ⟨Finset.mem_univ _, funext fun d => Fin.ext ?_⟩
    obtain rfl : d = 0 := Fin.ext (by have h1 : d.val < 1 := d.isLt; show d.val = 0; omega)
    rw [hd]
    rfl
  · intro i hi
    rw [Finset.mem_filter] at hi
    have hj : (j 0 : Nat) = i 2 := by rw [← hi.2, hd]
    dsimp only
    funext d
    match d with
    | ⟨0, _⟩ => rfl
    | ⟨1, _⟩ => rfl
    | ⟨2, _⟩ => exact Fin.ext hj
  · intro i hi
    rw [Finset.mem_filter] at hi
    have hj : (j 0 : Nat) = i 2 := by rw [← hi.2, hd]
    dsimp only
    exact congrArg x (funext fun d => match d with
      | ⟨0, _⟩ => rfl
      | ⟨1, _⟩ => rfl
      | ⟨2, _⟩ => Fin.ext hj.symm)

/-- So the host's sum of `[A, B, C]` over its two leading axes, at `j`, is the initial value plus the double sum. -/
theorem hostReduceAdd_lead2 {A B C : Nat} (h : (⟨3, ![A, B, C]⟩ : Shape).ReducesTo [0, 1] ⟨1, ![C]⟩)
    (x : (⟨3, ![A, B, C]⟩ : Shape).Idx → EReal) (init : EReal) (j : (⟨1, ![C]⟩ : Shape).Idx) :
    Ideal.hostReduceAdd h x init j = init + ∑ a : Fin A, ∑ b : Fin B, x (ix3 a b (j 0)) := by
  unfold Ideal.hostReduceAdd
  rw [sum_filter_drop_lead2]

end Cert.LeadingSum

end
-- ==== Proof.KTail.lean ====
/-
  The host operations after the kernel, and with them the kernel program's result.

  After the region the host sums the per-batch column sums over the batch (`chanSum`), divides by the count to get the
  per-channel mean (`chanMean`), forms `max (sum of squares / count - mean · mean) 0` (`chanVar`), and then computes
  `max (γ · (z - mean) · rsqrt (var + ε) + β) 0` over the whole activation array, the per-channel vectors broadcast over
  batch and node. Read at an index, with the three arrays the kernel leaves (the activation, its per-batch sums over the
  nodes, the per-batch sums of its squares), this is the specification's `normalized` value with the ONE-PASS variance:
  a sum over the batch of sums over the nodes is the total, and the zero a host sum starts from is absorbed.
-/
import proofs.«423968_j46677704573340_3_alg».proof.Proof.KRun
import proofs.«423968_j46677704573340_3_alg».proof.Proof.LibLeadingSum
import Idealize.ShloMosaic.Lib.IdealHost
import Idealize.ShloMosaic.Lib.StableHlo.Run

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Run Idealize.ShloMosaic.ValueIdx

/-! ## The host tail as one function of the buffers it reads -/

/-- A per-channel vector broadcast over batch and node. -/
abbrev overAll (v : FVec Ideal S64 .f32) : FVec Ideal S16x2048x64 .f32 :=
  broadcastInDim S16x2048x64 ![0, 1, 2] bcast_S1x1x64_S16x2048x64_0_1_2 (broadcastInDim S1x1x64 ![2] bcast_S64_S1x1x64_2 v)
/-- A scalar word broadcast over the channels. -/
abbrev perChan (w : BitVec 32) : FVec Ideal S64 .f32 := broadcastInDim S64 ![] bcast_S_S64 (constant (F := Ideal) S_ .f32 w)

/-- The host's sum of a `[16, 1, 64]` array over the batch, from the zero word. -/
def chanSum (s : FVec Ideal S16x1x64 .f32) : FVec Ideal S64 .f32 :=
  Host.reduceAdd (F := Ideal) s (constant (F := Ideal) S_ .f32 0x00000000#32) reducesTo_S16x1x64_S64_d0_1 h_S_
/-- The per-channel mean. -/
def chanMean (s : FVec Ideal S16x1x64 .f32) : FVec Ideal S64 .f32 := Host.divf (F := Ideal) (chanSum s) (perChan 0x47000000#32)
/-- The per-channel variance, one-pass and clamped. -/
def chanVar (s q : FVec Ideal S16x1x64 .f32) : FVec Ideal S64 .f32 :=
  maximumf (subf (Host.divf (F := Ideal) (chanSum q) (perChan 0x47000000#32)) (mulf (chanMean s) (chanMean s))) (perChan 0x00000000#32)

/-- Everything the host does after the region, as one function of the three arrays the kernel leaves and `γ`, `β`. -/
def tailFn (z : FVec Ideal S16x2048x64 .f32) (s q : FVec Ideal S16x1x64 .f32) (γ β : FVec Ideal S64 .f32) :
    FVec Ideal S16x2048x64 .f32 :=
  maximumf
    (addf (mulf (mulf (overAll γ) (subf z (overAll (chanMean s))))
        (overAll (Host.rsqrt (F := Ideal) (addf (chanVar s q) (perChan 0x3727C5AC#32))))) (overAll β))
    (broadcastInDim S16x2048x64 ![] bcast_S_S16x2048x64 (constant (F := Ideal) S_ .f32 0x00000000#32))

set_option maxRecDepth 8192 in
set_option maxHeartbeats 2000000 in
/-- The lines after the region, run from any buffer contents `W`, leave `tailFn` of what `W` holds in the result buffer. -/
theorem after_tail (W : Valuation τ sig (Elt Ideal)) :
    StableHlo.after (List.flatten [hostOps1, hostOps1_1]) W (Proc.devRef .tc main_v27)
      = tailFn (W (Proc.devRef .tc main_v1_0)) (W (Proc.devRef .tc main_v1_1)) (W (Proc.devRef .tc main_v1_2))
          (W (Proc.devRef .tc main_arg3)) (W (Proc.devRef .tc main_arg4)) := by
  simp only [hostOps1, hostOps1_1, List.flatten_cons, List.flatten_nil, List.append_nil, List.cons_append, List.nil_append]
  after_results_simp
  rfl

/-! ## The tail read at an index -/

/-- A per-channel vector broadcast over batch and node reads the channel's entry. -/
theorem overAll_apply (v : FVec Ideal S64 .f32) (b : Fin 16) (n : Fin 2048) (o : Fin 64) : overAll v (ix3 b n o) = v (ix1 o) :=
  (broadcastInDim_apply _ bcast_S1x1x64_S16x2048x64_0_1_2 _ (ix3 b n o) (ix3 (0 : Fin 1) (0 : Fin 1) o) (fun a => match a with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show o.val = if (64 : Nat) = 1 then 0 else o.val; rw [if_neg (by decide)])).trans
  (broadcastInDim_apply _ bcast_S64_S1x1x64_2 v (ix3 (0 : Fin 1) (0 : Fin 1) o) (ix1 o) (fun a => match a with
    | ⟨0, _⟩ => by show o.val = if (64 : Nat) = 1 then 0 else o.val; rw [if_neg (by decide)]))

/-- A scalar word broadcast over the channels reads the number the word denotes. -/
theorem perChan_apply (w : BitVec 32) (j : S64.Idx) : perChan w j = Ideal.ofBits .f32 w :=
  (broadcastInDim_scalar_apply bcast_S_S64 _ j).trans (constant_apply (s := S_) (φ := .f32) w ix0)

/-- The host's sum over the batch at channel `o`: the sum of the 16 entries (the zero it starts from absorbed). -/
theorem chanSum_apply (s : FVec Ideal S16x1x64 .f32) (o : Fin 64) : chanSum s (ix1 o) = ∑ b : Fin 16, s (ix3 b (0 : Fin 1) o) := by
  unfold chanSum
  rw [hostReduceAdd_apply, Cert.LeadingSum.hostReduceAdd_lead2, constant_apply, Ideal.ofBits_zero_f32, zero_add]
  exact Finset.sum_congr rfl fun b _ => Fin.sum_univ_one _

/-- With the kernel's per-batch sums, the host's mean is the specification's. -/
theorem chanMean_apply (x : Cert.Spec.SNode.Idx → EReal) (e : Cert.Spec.SEdge.Idx → EReal) (w : Cert.Spec.SMix.Idx → EReal) (o : Fin 64) :
    chanMean (fun i : S16x1x64.Idx => ∑ n : Fin 2048, Cert.Spec.act x e w (i 0) n (i 2)) (ix1 o) = Cert.Spec.mean x e w o := by
  unfold chanMean
  show Ideal.div (chanSum _ (ix1 o)) (perChan 0x47000000#32 (ix1 o)) = _
  rw [chanSum_apply, perChan_apply]
  rfl

/-- With the kernel's per-batch sums and sums of squares, the host's variance is the specification's one-pass variance. -/
theorem chanVar_apply (x : Cert.Spec.SNode.Idx → EReal) (e : Cert.Spec.SEdge.Idx → EReal) (w : Cert.Spec.SMix.Idx → EReal) (o : Fin 64) :
    chanVar (fun i : S16x1x64.Idx => ∑ n : Fin 2048, Cert.Spec.act x e w (i 0) n (i 2))
        (fun i : S16x1x64.Idx => ∑ n : Fin 2048, Cert.Spec.act x e w (i 0) n (i 2) * Cert.Spec.act x e w (i 0) n (i 2)) (ix1 o)
      = Cert.Spec.varOnePass x e w o := by
  unfold chanVar
  show max (Ideal.div (chanSum _ (ix1 o)) (perChan 0x47000000#32 (ix1 o)) - chanMean _ (ix1 o) * chanMean _ (ix1 o)) (perChan 0x00000000#32 (ix1 o)) = _
  rw [chanSum_apply, perChan_apply, perChan_apply, chanMean_apply, Ideal.ofBits_zero_f32]
  rfl

/-- THE TAIL AT AN INDEX: with the three arrays the kernel leaves, the specification's normalized value with the one-pass
    variance. -/
theorem tailFn_apply (x : Cert.Spec.SNode.Idx → EReal) (e : Cert.Spec.SEdge.Idx → EReal) (w : Cert.Spec.SMix.Idx → EReal)
    (γ β : FVec Ideal S64 .f32) (i : S16x2048x64.Idx) :
    tailFn (fun i : S16x2048x64.Idx => Cert.Spec.act x e w (i 0) (i 1) (i 2))
        (fun i : S16x1x64.Idx => ∑ n : Fin 2048, Cert.Spec.act x e w (i 0) n (i 2))
        (fun i : S16x1x64.Idx => ∑ n : Fin 2048, Cert.Spec.act x e w (i 0) n (i 2) * Cert.Spec.act x e w (i 0) n (i 2)) γ β i
      = Cert.Spec.normalized x e w (Cert.Spec.varOnePass x e w) γ β (i 0) (i 1) (i 2) := by
  obtain ⟨b, n, o, rfl⟩ : ∃ (b : Fin 16) (n : Fin 2048) (o : Fin 64), i = ix3 b n o := ⟨i 0, i 1, i 2, eq_ix3 i⟩
  unfold tailFn Cert.Spec.normalized
  show max (overAll γ (ix3 b n o) * (Cert.Spec.act x e w b n o - overAll (chanMean _) (ix3 b n o))
        * overAll (Host.rsqrt (F := Ideal) (addf (chanVar _ _) (perChan 0x3727C5AC#32))) (ix3 b n o) + overAll β (ix3 b n o))
      (broadcastInDim S16x2048x64 ![] bcast_S_S16x2048x64 (constant (F := Ideal) S_ .f32 0x00000000#32) (ix3 b n o))
    = max (γ (ix1 o) * (Cert.Spec.act x e w b n o - Cert.Spec.mean x e w o)
        * Ideal.rsqrt (Cert.Spec.varOnePass x e w o + Cert.Spec.eps) + β (ix1 o)) (Ideal.ofBits .f32 0x00000000#32)
  rw [overAll_apply, overAll_apply, overAll_apply, overAll_apply, chanMean_apply, broadcastInDim_scalar_apply,
    constant_apply (s := S_) (φ := .f32)]
  show max (_ * _ * Ideal.rsqrt (chanVar _ _ (ix1 o) + perChan 0x3727C5AC#32 (ix1 o)) + _) _ = _
  rw [chanVar_apply, perChan_apply]

end Cert.KernelIdeal.Tail

end
-- ==== Proof.KResult.lean ====
/-
  The kernel program's run, with its result named.

  The result buffer is written by the host lines after the region, from the three arrays the region leaves and from `γ`
  and `β`, which nothing has written. Those three arrays are the activation, its per-batch sums over the nodes and the
  per-batch sums of its squares; so the result is the specification's normalized value with the one-pass variance, at
  every index. The argument arrays end as launched.
-/
import proofs.«423968_j46677704573340_3_alg».proof.Proof.KTail

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Run Cert.KernelIdeal.Tail Idealize.ShloMosaic.ValueIdx

variable (m : (ℓ : Loc nD τ sig) → Buf (Elt Ideal) ℓ) (ρ : Dev nD → PrngReg)

/-- The scale `γ` as launched. -/
abbrev garr (c : Dev nD) : Cert.Spec.SChan.Idx → EReal := m ((c : Thread nD τ).loc main_arg3)
/-- The shift `β` as launched. -/
abbrev barr (c : Dev nD) : Cert.Spec.SChan.Idx → EReal := m ((c : Thread nD τ).loc main_arg4)

/-- The kernel program's result on core `c`, as a function of the arguments as launched. -/
def resultFn (c : Dev nD) : Cert.Spec.SNode.Idx → EReal := fun i =>
  Cert.Spec.normalized (xarr m c) (earr m c) (warr m c) (Cert.Spec.varOnePass (xarr m c) (earr m c) (warr m c))
    (garr m c) (barr m c) (i 0) (i 1) (i 2)
abbrev result (c : Dev nD) : Buf (Elt Ideal) ((c : Thread nD τ).loc main_v27) := resultFn m c

/-- What the lines after the region leave in the result buffer. -/
theorem tail_eq (c : Dev nD) :
    Pipeline.afterTail₀ cfgs (dats m) 0 (V0 m) [hostOps1, hostOps1_1] c main_v27 = result m c := by
  unfold Pipeline.afterTail₀
  rw [after_tail]
  have e3 : Pipeline.withArrays spec0 c (V0 m c) (fun w => (dats m 0 c).arrAt w cfg0.N) (Proc.devRef .tc main_v1_0) = actArr m c :=
    (Pipeline.withArrays_arr spec0 launch0.win.arr_inj c _ _ 3).trans (final3 m c)
  have e4 : Pipeline.withArrays spec0 c (V0 m c) (fun w => (dats m 0 c).arrAt w cfg0.N) (Proc.devRef .tc main_v1_1) = sumArr m c :=
    (Pipeline.withArrays_arr spec0 launch0.win.arr_inj c _ _ 4).trans (final4 m c)
  have e5 : Pipeline.withArrays spec0 c (V0 m c) (fun w => (dats m 0 c).arrAt w cfg0.N) (Proc.devRef .tc main_v1_2) = sqArr m c :=
    (Pipeline.withArrays_arr spec0 launch0.win.arr_inj c _ _ 5).trans (final5 m c)
  have eγ : Pipeline.withArrays spec0 c (V0 m c) (fun w => (dats m 0 c).arrAt w cfg0.N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have eβ : Pipeline.withArrays spec0 c (V0 m c) (fun w => (dats m 0 c).arrAt w cfg0.N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  show tailFn (Pipeline.withArrays spec0 c (V0 m c) (fun w => (dats m 0 c).arrAt w cfg0.N) (Proc.devRef .tc main_v1_0))
      (Pipeline.withArrays spec0 c (V0 m c) (fun w => (dats m 0 c).arrAt w cfg0.N) (Proc.devRef .tc main_v1_1))
      (Pipeline.withArrays spec0 c (V0 m c) (fun w => (dats m 0 c).arrAt w cfg0.N) (Proc.devRef .tc main_v1_2))
      (Pipeline.withArrays spec0 c (V0 m c) (fun w => (dats m 0 c).arrAt w cfg0.N) (Proc.devRef .tc main_arg3))
      (Pipeline.withArrays spec0 c (V0 m c) (fun w => (dats m 0 c).arrAt w cfg0.N) (Proc.devRef .tc main_arg4)) = _
  rw [e3, e4, e5, eγ, eβ]
  funext i
  exact tailFn_apply (xarr m c) (earr m c) (warr m c) (garr m c) (barr m c) i

/-- THE RUN: every weakly fair execution of the kernel program terminates with its result at `result` and its arguments
    as launched. -/
theorem run : θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v27 (Pipeline.mem_restRefs_of main_v27 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.Moments.lean ====
/-
  The arithmetic that joins a one-pass and a two-pass batch normalisation, with no program in sight.

  Over a finite family `z` of REAL numbers with `M` members, write `S = ∑ z` and `Q = ∑ z²`. Then
      ∑ (z - S/M)² = Q - S²/M,
  so the biased variance `(∑ (z - S/M)²) / M` is `Q/M - (S/M)²`; being a mean of squares it is not negative, and
  clamping it below at zero changes nothing. That is the whole difference between the two programs' statistics.
  The identity uses distributivity and cancellation, which fail at the infinities of the extended reals: it is stated
  for real `z` and then carried to the extended reals through the coercion, where a quotient by a nonzero real is
  the product with its reciprocal.

  Also here: the three float words the programs spell that have to be read as numbers (`2048`, its reciprocal
  `2⁻¹¹`, and the count `32768 = 16 · 2048`), and the one law between the first two: a product with `2⁻¹¹` is the
  quotient by `2048`, on every extended real.
-/
import Idealize.ShloMosaic.PureOps.Ideal
import Mathlib.Tactic.Ring
import Mathlib.Tactic.FieldSimp
import Mathlib.Tactic.Linarith
import Mathlib.Tactic.NormNum

noncomputable section

namespace Cert.Moments

open Idealize.ShloMosaic

/-! ## The float words read as numbers -/

/-- `2048.0` denotes the real `2048`. -/
theorem word_2048 : Ideal.ofBits .f32 0x45000000#32 = ((2048 : ℝ) : EReal) := by
  simp [Ideal.ofBits, Ideal.ieee, -EReal.coe_mul]; norm_num

/-- `4.8828125e-4` denotes `1 / 2048` exactly: it is the power of two `2⁻¹¹`. -/
theorem word_inv2048 : Ideal.ofBits .f32 0x3A000000#32 = ((1 / 2048 : ℝ) : EReal) := by
  simp [Ideal.ofBits, Ideal.ieee, -EReal.coe_mul]; norm_num

/-- `32768.0` denotes the real `32768`. -/
theorem word_32768 : Ideal.ofBits .f32 0x47000000#32 = ((32768 : ℝ) : EReal) := by
  simp [Ideal.ofBits, Ideal.ieee, -EReal.coe_mul]; norm_num

/-- Scaling by `2⁻¹¹` is dividing by `2048`, for every extended real (no finiteness: the quotient by a nonzero real
    IS the product with its reciprocal). -/
theorem scale_eq_div (a : EReal) :
    a * Ideal.ofBits .f32 0x3A000000#32 = Ideal.div a (Ideal.ofBits .f32 0x45000000#32) := by
  rw [word_inv2048, word_2048, Ideal.div_coe (by norm_num : (2048 : ℝ) ≠ 0)]

/-! ## Sums of reals inside the extended reals -/

/-- A finite sum of real numbers, taken in the extended reals, is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The variance, over the reals -/

/-- The sum of squared deviations from the mean is the sum of squares less `S² / M`. -/
theorem sum_sq_dev {ι : Type*} [Fintype ι] (z : ι → ℝ) (M : ℝ) (hM : (Fintype.card ι : ℝ) = M) (h0 : 0 < M) :
    (∑ i, (z i - (∑ j, z j) * (1 / M)) * (z i - (∑ j, z j) * (1 / M)))
      = (∑ i, z i * z i) - (∑ j, z j) * (∑ j, z j) * (1 / M) := by
  have hne : M ≠ 0 := h0.ne'
  have e : ∀ i, (z i - (∑ j, z j) * (1 / M)) * (z i - (∑ j, z j) * (1 / M))
      = z i * z i - 2 * ((∑ j, z j) * (1 / M)) * z i + ((∑ j, z j) * (1 / M)) * ((∑ j, z j) * (1 / M)) := fun i => by ring
  simp only [e]
  rw [Finset.sum_add_distrib, Finset.sum_sub_distrib, ← Finset.mul_sum, Finset.sum_const, Finset.card_univ,
    nsmul_eq_mul, hM]
  field_simp
  ring

/-- One-pass against two-pass: `max (Q/M - (S/M)²) 0` is the mean of the squared deviations. -/
theorem var_real {ι : Type*} [Fintype ι] (z : ι → ℝ) (M : ℝ) (hM : (Fintype.card ι : ℝ) = M) (h0 : 0 < M) :
    max ((∑ i, z i * z i) * (1 / M) - (∑ j, z j) * (1 / M) * ((∑ j, z j) * (1 / M))) 0
      = (∑ i, (z i - (∑ j, z j) * (1 / M)) * (z i - (∑ j, z j) * (1 / M))) * (1 / M) := by
  have hnn : 0 ≤ (∑ i, (z i - (∑ j, z j) * (1 / M)) * (z i - (∑ j, z j) * (1 / M))) * (1 / M) :=
    mul_nonneg (Finset.sum_nonneg fun i _ => mul_self_nonneg _) (by positivity)
  have e : (∑ i, z i * z i) * (1 / M) - (∑ j, z j) * (1 / M) * ((∑ j, z j) * (1 / M))
      = (∑ i, (z i - (∑ j, z j) * (1 / M)) * (z i - (∑ j, z j) * (1 / M))) * (1 / M) := by
    rw [sum_sq_dev z M hM h0]; ring
  rw [e, max_eq_left hnn]

/-! ## The same, in the extended reals -/

/-- The mean of a real family, computed in the extended reals, is a real number. -/
theorem mean_coe {ι : Type*} [Fintype ι] (z : ι → ℝ) (M : ℝ) (h0 : 0 < M) :
    Ideal.div (∑ i, (z i : EReal)) (M : EReal) = (((∑ i, z i) * (1 / M) : ℝ) : EReal) := by
  rw [Ideal.div_coe h0.ne', coe_sum, ← EReal.coe_mul]

/-- THE LAW. For a real family of `M` members, in the extended reals: the clamped one-pass variance
    `max (Q/M - μ·μ) 0` with `μ = S/M` is the two-pass variance `(∑ (z - μ)·(z - μ)) / M`. -/
theorem var_eq {ι : Type*} [Fintype ι] (z : ι → ℝ) (M : ℝ) (hM : (Fintype.card ι : ℝ) = M) (h0 : 0 < M) :
    max (Ideal.div (∑ i, (z i : EReal) * (z i : EReal)) (M : EReal)
          - Ideal.div (∑ i, (z i : EReal)) (M : EReal) * Ideal.div (∑ i, (z i : EReal)) (M : EReal)) 0
      = Ideal.div (∑ i, ((z i : EReal) - Ideal.div (∑ j, (z j : EReal)) (M : EReal))
                        * ((z i : EReal) - Ideal.div (∑ j, (z j : EReal)) (M : EReal))) (M : EReal) := by
  rw [mean_coe z M h0]
  simp only [← EReal.coe_mul, ← EReal.coe_sub]
  rw [coe_sum, coe_sum, Ideal.div_coe h0.ne', Ideal.div_coe h0.ne', ← EReal.coe_mul, ← EReal.coe_mul, ← EReal.coe_sub,
    ← EReal.coe_zero, ← EReal.coe_strictMono.monotone.map_max, var_real z M hM h0]

end Cert.Moments

end
-- ==== Proof.RefValue.lean ====
/-
  The reference program's result, read at an index, is the specification's `normalized` value with the TWO-PASS
  variance.

  The program, operation by operation: the two planes of the edge array are sliced out and reshaped, and their
  difference is the signed edge weight; a batched contraction with the node features is the neighbour sum; that sum is
  divided by `2048` (the specification multiplies by `2⁻¹¹`: the same extended real, by `Moments.scale_eq_div`) and
  added to the node's own features; a contraction with the mixing matrix is the activation. A float sum over the two
  leading axes, from the zero word, divided by `32768` is the per-channel mean; the same sum of the squared deviations,
  divided by `32768`, is the variance. The result is `γ · (act - mean) · rsqrt (var + ε) + β`, rectified against the
  zero word.

  Each step is read at an index `(b, n, o)` (or at a channel `o`) through the generated read-at-an-index lemmas; the
  only arithmetic is on row-major positions (a reshape that drops a unit axis keeps the position). Every float word
  stays a word (the instance's `ofBits` field is only named as `Ideal.ofBits`), except that the zero word the two
  sums start from is read as the number `0` and absorbed; the law between the words `2⁻¹¹` and `2048` is imported.
-/
import proofs.«423968_j46677704573340_3_alg».proof.Proof.Gen.ReferenceIdeal.Read
import proofs.«423968_j46677704573340_3_alg».proof.Proof.Spec
import proofs.«423968_j46677704573340_3_alg».proof.Proof.Moments
import proofs.«423968_j46677704573340_3_alg».proof.Proof.LibLeadingSum
import Idealize.ShloMosaic.Lib.IdealHost
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Gen Cert.ReferenceIdeal.Read

/-! ## The activation: the two planes, their difference, the neighbour sum, the residual, the channel mix -/

/-- Plane 0 of the edge array, read through the slice and the reshape: the row-major position of `(b, n, j)` in
    `[16, 2048, 2048]` is the position of `(b, 0, n, j)` in `[16, 1, 2048, 2048]`, and the slice keeps plane 0. -/
theorem idx_plane0 (b : Fin 16) (n j : Fin 2048) :
    idx_main_v0 (idx_main_v1 (ix3 b n j)) = ix4 b (0 : Fin 2) n j := by
  funext a
  refine Fin.ext ?_
  have hb : b.val < 16 := b.isLt
  have hn : n.val < 2048 := n.isLt
  have hj : j.val < 2048 := j.isLt
  match a with
  | ⟨0, _⟩ => show ((b.val * 2048 + n.val) * 2048 + j.val) / 4194304 = b.val; omega
  | ⟨1, _⟩ => rfl
  | ⟨2, _⟩ => show ((b.val * 2048 + n.val) * 2048 + j.val) / 2048 % 2048 = n.val; omega
  | ⟨3, _⟩ => show ((b.val * 2048 + n.val) * 2048 + j.val) % 2048 = j.val; omega

/-- Plane 1 likewise: the slice starts at plane 1. -/
theorem idx_plane1 (b : Fin 16) (n j : Fin 2048) :
    idx_main_v2 (idx_main_v3 (ix3 b n j)) = ix4 b (1 : Fin 2) n j := by
  funext a
  refine Fin.ext ?_
  have hb : b.val < 16 := b.isLt
  have hn : n.val < 2048 := n.isLt
  have hj : j.val < 2048 := j.isLt
  match a with
  | ⟨0, _⟩ => show ((b.val * 2048 + n.val) * 2048 + j.val) / 4194304 = b.val; omega
  | ⟨1, _⟩ => rfl
  | ⟨2, _⟩ => show ((b.val * 2048 + n.val) * 2048 + j.val) / 2048 % 2048 = n.val; omega
  | ⟨3, _⟩ => show ((b.val * 2048 + n.val) * 2048 + j.val) % 2048 = j.val; omega

/-- The signed edge weight: similarity less dissimilarity. -/
theorem signed_apply (x1 : (⟨S16x2x2048x2048, .f32⟩ : BufTy).Contents (Elt Ideal)) (b : Fin 16) (n j : Fin 2048) :
    val_main_v4 (F := Ideal) x1 (ix3 b n j) = x1 (ix4 b (0 : Fin 2) n j) - x1 (ix4 b (1 : Fin 2) n j) := by
  rw [val_main_v4_apply, val_main_v1_apply, val_main_v0_apply, val_main_v3_apply, val_main_v2_apply,
    idx_plane0, idx_plane1, Ideal.subf_def]

/-- The contraction's left index at `(b, n, f)`, `k`: row `n` of batch `b`, column `k`. -/
theorem lidx5 (b : Fin 16) (n : Fin 2048) (f : Fin 64) (k : Fin 2048) :
    lidx_main_v5 (ix3 b n f) k = ix3 b n k :=
  funext fun a => Fin.ext (by match a with | ⟨0, _⟩ => rfl | ⟨1, _⟩ => rfl | ⟨2, _⟩ => rfl)

/-- The contraction's right index: node `k` of batch `b`, channel `f`. -/
theorem ridx5 (b : Fin 16) (n : Fin 2048) (f : Fin 64) (k : Fin 2048) :
    ridx_main_v5 (ix3 b n f) k = ix3 b k f :=
  funext fun a => Fin.ext (by match a with | ⟨0, _⟩ => rfl | ⟨1, _⟩ => rfl | ⟨2, _⟩ => rfl)

/-- The first contraction is the signed neighbour sum. -/
theorem agg_apply (x0 : (⟨S16x2048x64, .f32⟩ : BufTy).Contents (Elt Ideal))
    (x1 : (⟨S16x2x2048x2048, .f32⟩ : BufTy).Contents (Elt Ideal)) (b : Fin 16) (n : Fin 2048) (f : Fin 64) :
    val_main_v5 (F := Ideal) x0 x1 (ix3 b n f) = Cert.Spec.agg x0 x1 b n f := by
  rw [val_main_v5_apply]
  unfold Cert.Spec.agg
  refine Finset.sum_congr rfl fun k _ => ?_
  rw [lidx5, ridx5, signed_apply]

/-- The residual: the node's own features plus the neighbour sum scaled by `2⁻¹¹` (the program divides by `2048`). -/
theorem resid_apply (x0 : (⟨S16x2048x64, .f32⟩ : BufTy).Contents (Elt Ideal))
    (x1 : (⟨S16x2x2048x2048, .f32⟩ : BufTy).Contents (Elt Ideal)) (b : Fin 16) (n : Fin 2048) (f : Fin 64) :
    val_main_v8 (F := Ideal) x0 x1 (ix3 b n f) = x0 (ix3 b n f) + Cert.Spec.agg x0 x1 b n f * Cert.Spec.invN := by
  rw [val_main_v8_apply, val_main_v7_apply, val_main_v6_apply, val_main_cst_apply, agg_apply, Ideal.addf_def,
    Ideal.hostDivf_def, Ideal.ofBits_def, ← Cert.Moments.scale_eq_div]

/-- The channel mix's left index: node `(b, n)`, input channel `k`. -/
theorem lidx9 (b : Fin 16) (n : Fin 2048) (o k : Fin 64) :
    lidx_main_v9 (ix3 b n o) k = ix3 b n k :=
  funext fun a => Fin.ext (by match a with | ⟨0, _⟩ => rfl | ⟨1, _⟩ => rfl | ⟨2, _⟩ => rfl)

/-- The channel mix's right index: row `o` of the mixing matrix, column `k`. -/
theorem ridx9 (b : Fin 16) (n : Fin 2048) (o k : Fin 64) :
    ridx_main_v9 (ix3 b n o) k = ix2 o k :=
  funext fun a => Fin.ext (by match a with | ⟨0, _⟩ => rfl | ⟨1, _⟩ => rfl)

/-- The second contraction is the activation. -/
theorem act_apply (x0 : (⟨S16x2048x64, .f32⟩ : BufTy).Contents (Elt Ideal))
    (x1 : (⟨S16x2x2048x2048, .f32⟩ : BufTy).Contents (Elt Ideal))
    (x2 : (⟨S64x64, .f32⟩ : BufTy).Contents (Elt Ideal)) (b : Fin 16) (n : Fin 2048) (o : Fin 64) :
    val_main_v9 (F := Ideal) x0 x1 x2 (ix3 b n o) = Cert.Spec.act x0 x1 x2 b n o := by
  rw [val_main_v9_apply]
  unfold Cert.Spec.act
  refine Finset.sum_congr rfl fun k _ => ?_
  rw [lidx9, ridx9, resid_apply]

/-! ## The batch statistics -/

/-- A float sum of a `[16, 2048, 64]` array over its two leading axes, from the zero word, at channel `o`:
    the double sum over batch members and nodes (the zero initial value is absorbed). -/
theorem lead_sum (y : (⟨S16x2048x64, .f32⟩ : BufTy).Contents (Elt Ideal)) (z : (⟨S_, .f32⟩ : BufTy).Contents (Elt Ideal))
    (hz : ∀ i, z i = Ideal.ofBits .f32 0x00000000#32) (o : Fin 64) :
    Host.reduceAdd (F := Ideal) (φ := .f32) y z reducesTo_S16x2048x64_S64_d0_1 h_S_ (ix1 o)
      = ∑ b : Fin 16, ∑ n : Fin 2048, y (ix3 b n o) := by
  rw [hostReduceAdd_apply, Cert.LeadingSum.hostReduceAdd_lead2, hz, Ideal.ofBits_zero_f32, zero_add]

/-- The per-channel mean. -/
theorem mean_apply (x0 : (⟨S16x2048x64, .f32⟩ : BufTy).Contents (Elt Ideal))
    (x1 : (⟨S16x2x2048x2048, .f32⟩ : BufTy).Contents (Elt Ideal))
    (x2 : (⟨S64x64, .f32⟩ : BufTy).Contents (Elt Ideal)) (o : Fin 64) :
    val_main_v12 (F := Ideal) x0 x1 x2 (ix1 o) = Cert.Spec.mean x0 x1 x2 o := by
  rw [val_main_v12_apply, val_main_v11_apply, val_main_cst_1_apply, Ideal.hostDivf_def, Ideal.ofBits_def]
  unfold val_main_v10 Cert.Spec.mean Cert.Spec.total
  rw [lead_sum _ _ (fun i => val_main_cst_0_apply i)]
  simp only [act_apply]

/-- A per-channel vector broadcast to `[1, 1, 64]` and then to `[16, 2048, 64]` is read at the channel. -/
theorem idx_chan13 (b : Fin 16) (n : Fin 2048) (o : Fin 64) :
    idx_main_v13 (idx_main_v14 (ix3 b n o)) = ix1 o :=
  funext fun a => Fin.ext (by match a with | ⟨0, _⟩ => rfl)
theorem idx_chan20 (b : Fin 16) (n : Fin 2048) (o : Fin 64) :
    idx_main_v20 (idx_main_v21 (ix3 b n o)) = ix1 o :=
  funext fun a => Fin.ext (by match a with | ⟨0, _⟩ => rfl)
theorem idx_chan23 (b : Fin 16) (n : Fin 2048) (o : Fin 64) :
    idx_main_v23 (idx_main_v24 (ix3 b n o)) = ix1 o :=
  funext fun a => Fin.ext (by match a with | ⟨0, _⟩ => rfl)
theorem idx_chan29 (b : Fin 16) (n : Fin 2048) (o : Fin 64) :
    idx_main_v29 (idx_main_v30 (ix3 b n o)) = ix1 o :=
  funext fun a => Fin.ext (by match a with | ⟨0, _⟩ => rfl)
theorem idx_chan32 (b : Fin 16) (n : Fin 2048) (o : Fin 64) :
    idx_main_v32 (idx_main_v33 (ix3 b n o)) = ix1 o :=
  funext fun a => Fin.ext (by match a with | ⟨0, _⟩ => rfl)

/-- The squared deviation from the mean. -/
theorem sqdev_apply (x0 : (⟨S16x2048x64, .f32⟩ : BufTy).Contents (Elt Ideal))
    (x1 : (⟨S16x2x2048x2048, .f32⟩ : BufTy).Contents (Elt Ideal))
    (x2 : (⟨S64x64, .f32⟩ : BufTy).Contents (Elt Ideal)) (b : Fin 16) (n : Fin 2048) (o : Fin 64) :
    val_main_v16 (F := Ideal) x0 x1 x2 (ix3 b n o)
      = (Cert.Spec.act x0 x1 x2 b n o - Cert.Spec.mean x0 x1 x2 o)
        * (Cert.Spec.act x0 x1 x2 b n o - Cert.Spec.mean x0 x1 x2 o) := by
  rw [val_main_v16_apply, val_main_v15_apply, val_main_v14_apply, val_main_v13_apply, idx_chan13, act_apply,
    mean_apply, Ideal.mulf_def, Ideal.subf_def]

/-- The variance as the program computes it: the mean squared deviation. -/
theorem var_apply (x0 : (⟨S16x2048x64, .f32⟩ : BufTy).Contents (Elt Ideal))
    (x1 : (⟨S16x2x2048x2048, .f32⟩ : BufTy).Contents (Elt Ideal))
    (x2 : (⟨S64x64, .f32⟩ : BufTy).Contents (Elt Ideal)) (o : Fin 64) :
    val_main_v19 (F := Ideal) x0 x1 x2 (ix1 o) = Cert.Spec.varTwoPass x0 x1 x2 o := by
  rw [val_main_v19_apply, val_main_v18_apply, val_main_cst_3_apply, Ideal.hostDivf_def, Ideal.ofBits_def]
  unfold val_main_v17 Cert.Spec.varTwoPass Cert.Spec.total
  rw [lead_sum _ _ (fun i => val_main_cst_2_apply i)]
  simp only [sqdev_apply]

/-! ## The result -/

/-- The reference's result at an index: the activation less its mean, scaled by `γ` and by the reciprocal root of
    the two-pass variance plus `ε`, shifted by `β`, rectified. -/
theorem result_eq (x0 : (⟨S16x2048x64, .f32⟩ : BufTy).Contents (Elt Ideal))
    (x1 : (⟨S16x2x2048x2048, .f32⟩ : BufTy).Contents (Elt Ideal))
    (x2 : (⟨S64x64, .f32⟩ : BufTy).Contents (Elt Ideal)) (x3 x4 : (⟨S64, .f32⟩ : BufTy).Contents (Elt Ideal))
    (i : S16x2048x64.Idx) :
    val_main_v35 (F := Ideal) x0 x1 x2 x3 x4 i
      = Cert.Spec.normalized x0 x1 x2 (Cert.Spec.varTwoPass x0 x1 x2) x3 x4 (i 0) (i 1) (i 2) := by
  obtain ⟨b, n, o, rfl⟩ : ∃ b n o, i = ix3 b n o := ⟨i 0, i 1, i 2, eq_ix3 i⟩
  rw [val_main_v35_apply, val_main_call0_v0_apply, val_main_call0_cst_apply, val_main_v34_apply,
    val_main_v33_apply, val_main_v32_apply, idx_chan32, val_main_v31_apply, val_main_v30_apply, val_main_v29_apply,
    idx_chan29, val_main_v28_apply, val_main_v27_apply, val_main_v26_apply, val_main_cst_4_apply, var_apply,
    val_main_v25_apply, val_main_v24_apply, val_main_v23_apply, idx_chan23, val_main_v22_apply, val_main_v21_apply,
    val_main_v20_apply, idx_chan20, act_apply, mean_apply]
  simp only [Ideal.maximumf_def, Ideal.addf_def, Ideal.mulf_def, Ideal.subf_def, Ideal.hostUnary_rsqrt_def,
    Ideal.ofBits_def]
  rfl

end Cert.RefValue

end
-- ==== Proof.FiniteInputs.lean ====
/-
  From the certificate's precondition to real inputs.

  The precondition is a printed program: for each of the five arguments it takes absolute values, compares them
  strictly below the +∞ word, reduces the comparison bits by `and` over every axis from the constant true, and
  joins the five results by `and`. Over the extended reals a value whose absolute value lies strictly below ⊤ is
  neither ⊤ nor ⊥, hence a real number. So "the program returns true" gives, for each array, a real-valued
  function it is the coercion of. Only the first three arrays are stated: the arithmetic uses no more.
-/
import Idealize.ShloMosaic.Lib.ReduceAll
import Idealize.ShloMosaic.Lib.StableHlo.Predicate
import Idealize.ShloMosaic.Lib.ValueIdx
import Idealize.ShloMosaic.PureOps.Ideal
import proofs.«423968_j46677704573340_3_alg».proof.Pre_finite_inputs

noncomputable section

namespace Cert.FiniteInputs

open Idealize.ShloMosaic Cert.Pre_finite_inputs

/-- The f32 word with all exponent bits set and a zero significand denotes ⊤. -/
theorem inf_word : Ideal.ofBits .f32 0x7F800000#32 = (⊤ : EReal) := by
  simp [Ideal.ofBits, Ideal.ieee]

/-- An extended real whose absolute value `max x (-x)` is strictly below ⊤ is a real: at ⊤ the maximum is ⊤,
    and at ⊥ it is `-⊥ = ⊤`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- At any shape: an array whose comparison bits `|a i| < +∞`, reduced by `and` over all axes, come out true
    has a real number at every index, so it is the coercion of a real-valued function. -/
theorem reals_of_all {s : Shape} {axes : List (Fin s.rank)} (a : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi
        (cmpf .olt (Host.absf a) (broadcastInDim s ![] hb (constant (F := Ideal) S_ .f32 0x7F800000#32))) init hr h0 j
      = 1#1) :
    ∃ x : s.Idx → ℝ, a = fun i => ((x i : ℝ) : EReal) := by
  -- the scalar shape has one index, so every index of `a` reduces into the result
  haveI : Subsingleton S_.Idx := ⟨fun p q => funext fun d => d.elim0⟩
  have hx : ∀ i, ∃ r : ℝ, a i = (r : EReal) := by
    intro i
    have h1 := Host.reduce_andi_all _ init hr h0 j e i
    -- read at `i`: the bit of `max (a i) (-(a i)) < (the +∞ word)` in the linear order of the extended reals
    have h2 : BitVec.ofBool (decide (max (a i) (-(a i)) < Ideal.ofBits .f32 0x7F800000#32)) = 1#1 := h1
    rw [StableHlo.Predicate.ofBool_eq_one_iff, decide_eq_true_eq, inf_word] at h2
    exact real_of_abs_lt_top (a i) h2
  choose x hx using hx
  exact ⟨x, funext hx⟩

variable [Cert.Pre_finite_inputs.Facts]

/-- The precondition true makes the three arrays the arithmetic reads real-valued. The result is a nest of four
    `and`s of the five all-reductions, in argument order; each true conjunction gives both its sides true. -/
theorem reals (a0 : FVec Ideal S16x2048x64 .f32) (a1 : FVec Ideal S16x2x2048x2048 .f32) (a2 : FVec Ideal S64x64 .f32)
    (a3 a4 : FVec Ideal S64 .f32) (h : fn (F := Ideal) a0 a1 a2 a3 a4 = fun _ => 1#1) :
    (∃ x : S16x2048x64.Idx → ℝ, a0 = fun i => ((x i : ℝ) : EReal))
    ∧ (∃ e : S16x2x2048x2048.Idx → ℝ, a1 = fun i => ((e i : ℝ) : EReal))
    ∧ (∃ w : S64x64.Idx → ℝ, a2 = fun i => ((w i : ℝ) : EReal)) := by
  have h' := congrFun h ValueIdx.ix0
  dsimp only [fn, fn_part1] at h'
  obtain ⟨h1234, _⟩ := IntOp.andi_eq_one.1 h'
  obtain ⟨h123, _⟩ := IntOp.andi_eq_one.1 h1234
  obtain ⟨h12, e2⟩ := IntOp.andi_eq_one.1 h123
  obtain ⟨e0, e1⟩ := IntOp.andi_eq_one.1 h12
  exact ⟨reals_of_all a0 _ _ _ _ _ e0, reals_of_all a1 _ _ _ _ _ e1, reals_of_all a2 _ _ _ _ _ e2⟩

end Cert.FiniteInputs

end
-- ==== Proof.Join.lean ====
/-
  The one law that joins the two programs: over REAL inputs the clamped one-pass variance is the two-pass variance.

  With real node features, edge features and mixing matrix, every activation `act b n o` is a real number (a finite sum of
  products of reals, the scale `2⁻¹¹` being the real `1/2048`). The batch has `16 · 2048 = 32768` members, which is the
  count both programs divide by. So `Moments.var_eq` applies to the family `(b, n) ↦ act b n o`, channel by channel.
-/
import proofs.«423968_j46677704573340_3_alg».proof.Proof.Spec
import proofs.«423968_j46677704573340_3_alg».proof.Proof.Moments

noncomputable section

namespace Cert.Join

open Idealize.ShloMosaic Idealize.ShloMosaic.ValueIdx Cert.Spec

/-- The activation of real inputs, as a real number. -/
def actR (x : SNode.Idx → ℝ) (e : SEdge.Idx → ℝ) (w : SMix.Idx → ℝ) (b : Fin 16) (n : Fin 2048) (o : Fin 64) : ℝ :=
  ∑ f : Fin 64, (x (ix3 b n f)
    + (∑ j : Fin 2048, (e (ix4 b (0 : Fin 2) n j) - e (ix4 b (1 : Fin 2) n j)) * x (ix3 b j f)) * (1 / 2048)) * w (ix2 o f)

/-- The activation of real inputs is that real number. -/
theorem act_coe (x : SNode.Idx → ℝ) (e : SEdge.Idx → ℝ) (w : SMix.Idx → ℝ) (b : Fin 16) (n : Fin 2048) (o : Fin 64) :
    act (fun i => (x i : EReal)) (fun i => (e i : EReal)) (fun i => (w i : EReal)) b n o = ((actR x e w b n o : ℝ) : EReal) := by
  unfold act agg actR
  simp only [Moments.word_inv2048, ← EReal.coe_sub, ← EReal.coe_mul, Moments.coe_sum, ← EReal.coe_add]

/-- For real inputs the clamped one-pass variance is the two-pass variance, at every channel. -/
theorem var_eq (x : SNode.Idx → ℝ) (e : SEdge.Idx → ℝ) (w : SMix.Idx → ℝ) (o : Fin 64) :
    varOnePass (fun i => (x i : EReal)) (fun i => (e i : EReal)) (fun i => (w i : EReal)) o
      = varTwoPass (fun i => (x i : EReal)) (fun i => (e i : EReal)) (fun i => (w i : EReal)) o := by
  have key := Moments.var_eq (ι := Fin 16 × Fin 2048) (fun p => actR x e w p.1 p.2 o) 32768
    (by simp only [Fintype.card_prod, Fintype.card_fin]; norm_num) (by norm_num)
  simp only [Fintype.sum_prod_type] at key
  unfold varOnePass varTwoPass mean total
  simp only [act_coe, count, Moments.word_32768]
  exact key

/-- So for arrays that are real-valued the two normalized results are one, whichever variance is used. -/
theorem normalized_eq (X : SNode.Idx → EReal) (E : SEdge.Idx → EReal) (W : SMix.Idx → EReal)
    (hX : ∃ x : SNode.Idx → ℝ, X = fun i => ((x i : ℝ) : EReal)) (hE : ∃ e : SEdge.Idx → ℝ, E = fun i => ((e i : ℝ) : EReal))
    (hW : ∃ w : SMix.Idx → ℝ, W = fun i => ((w i : ℝ) : EReal)) (γ β : SChan.Idx → EReal) (b : Fin 16) (n : Fin 2048) (o : Fin 64) :
    normalized X E W (varTwoPass X E W) γ β b n o = normalized X E W (varOnePass X E W) γ β b n o := by
  obtain ⟨x, rfl⟩ := hX
  obtain ⟨e, rfl⟩ := hE
  obtain ⟨w, rfl⟩ := hW
  unfold normalized
  rw [var_eq]

end Cert.Join

end
-- ==== Proof.lean ====
/-
  A graph layer followed by batch normalisation, as a fused kernel against its plain reference, over the extended reals.

  Both programs compute, from node features `x`, edge features `e` (a plane of similarities and a plane of
  dissimilarities), a mixing matrix `w` and per-channel `γ, β`:
      act[b,n,o] = ∑_f (x[b,n,f] + (∑ⱼ (e[b,0,n,j] - e[b,1,n,j]) · x[b,j,f]) / 2048) · w[o,f]
      out        = max (γ · (act - mean) · rsqrt (var + ε) + β) 0,      mean, var per channel over batch and nodes.
  They differ in three ways, none of which changes an extended real under the precondition:
    · the kernel scales the neighbour sum by the float `2⁻¹¹`, which is exactly `1/2048`, where the reference divides by
      `2048`: the same on every extended real (`Moments.scale_eq_div`);
    · the kernel sums the activation tile by tile and batch member by batch member, the reference in one sum: addition of
      extended reals is commutative and associative, so the regrouping is free;
    · the kernel's variance is `max (E[act²] - mean²) 0`, the reference's `E[(act - mean)²]`. These agree when the
      activations are REAL numbers (distributivity and cancellation fail at the infinities), and they are: the
      precondition makes every input finite (`FiniteInputs.reals`), so every activation is a finite sum of products of reals
      (`Join.var_eq`, over `Moments.var_eq`).
  The kernel's side (`KernelIdeal.Result.run`) reads the generated frame run: what each case of the body leaves in its
  three output blocks, the blocks as pieces of three whole arrays, and the host lines after the region. The reference's
  side (`RefValue.result_eq`) reads the generated run of its 44 host operations at an index. Both land on the
  specification's `normalized`, with the one-pass and the two-pass variance respectively.
  The three frame claims are the generated frames (the reference's, its generated run with the result dropped), and the
  kernel's idealization rewrote nothing, so that conjunct is `True`.
-/
import proofs.«423968_j46677704573340_3_alg».proof.Defs
import proofs.«423968_j46677704573340_3_alg».proof.Proof.Gen.Kernel
import proofs.«423968_j46677704573340_3_alg».proof.Proof.Gen.Kernel.Skeleton
import proofs.«423968_j46677704573340_3_alg».proof.Proof.Gen.Kernel.Launch
import proofs.«423968_j46677704573340_3_alg».proof.Proof.Gen.Kernel.Points
import proofs.«423968_j46677704573340_3_alg».proof.Proof.Gen.Kernel.Frame
import proofs.«423968_j46677704573340_3_alg».proof.Proof.Gen.KernelIdeal
import proofs.«423968_j46677704573340_3_alg».proof.Proof.Gen.KernelIdeal.Skeleton
import proofs.«423968_j46677704573340_3_alg».proof.Proof.Gen.KernelIdeal.Launch
import proofs.«423968_j46677704573340_3_alg».proof.Proof.Gen.KernelIdeal.Points
import proofs.«423968_j46677704573340_3_alg».proof.Proof.Gen.KernelIdeal.Frame
import proofs.«423968_j46677704573340_3_alg».proof.Proof.Gen.ReferenceIdeal
import proofs.«423968_j46677704573340_3_alg».proof.Proof.Gen.Pre_finite_inputs
import proofs.«423968_j46677704573340_3_alg».proof.Proof.Gen.ReferenceIdeal.Run
import proofs.«423968_j46677704573340_3_alg».proof.Proof.Gen.ReferenceIdeal.Read
import proofs.«423968_j46677704573340_3_alg».proof.Proof.KResult
import proofs.«423968_j46677704573340_3_alg».proof.Proof.RefValue
import proofs.«423968_j46677704573340_3_alg».proof.Proof.FiniteInputs
import proofs.«423968_j46677704573340_3_alg».proof.Proof.Join
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values, from memories that agree on the five arguments, both programs end at one result: the kernel's is
    `normalized` with the one-pass variance, the reference's with the two-pass variance, and over the real inputs the
    precondition grants these are one number at every index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1,
    (hagree c).2.2.2.2]
  obtain ⟨hx, he, hw⟩ := Cert.FiniteInputs.reals _ _ _ _ _ (hpre c)
  funext i
  rw [Cert.RefValue.result_eq]
  exact Cert.Join.normalized_eq _ _ _ hx he hw _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
